-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4 : Shape := ⟨2, ![1048576, 4]⟩
abbrev S4x128 : Shape := ⟨2, ![4, 128]⟩
abbrev S1x128 : Shape := ⟨2, ![1, 128]⟩
abbrev S128x128 : Shape := ⟨2, ![128, 128]⟩
abbrev S_ : Shape := ⟨0, ![]⟩

class Facts : Prop where
  bcast_S_S1048576x4 : S_.BroadcastsInDim S1048576x4 (![] : Fin 0 → Fin S1048576x4.rank)
  reducesTo_S1048576x4_S_d0_1 : S1048576x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S1048576x4 .f32) (main_arg1 : FVec F S4x128 .f32) (main_arg2 : FVec F S1x128 .f32) (main_arg3 : FVec F S128x128 .f32) (main_arg4 : FVec F S1x128 .f32) : IVec S_ 1 :=
  let main_v0 : FVec F S1048576x4 .f32 := Host.absf main_arg0
  let main_cst : FVec F S_ .f32 := constant S_ .f32 0x7F800000#32
  let main_v1 : FVec F S1048576x4 .f32 := broadcastInDim S1048576x4 ![] bcast_S_S1048576x4 main_cst
  let main_v2 : IVec S1048576x4 1 := cmpf .olt main_v0 main_v1
  let main_c : IVec S_ 1 := constantI S_ 1 1#1
  let main_v3 : IVec S_ 1 := (fun x v => Host.reduce IntOp.andi x v reducesTo_S1048576x4_S_d0_1 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S1048576x4 : Shape := ⟨2, ![1048576, 4]⟩
abbrev S4x128 : Shape := ⟨2, ![4, 128]⟩
abbrev S1x128 : Shape := ⟨2, ![1, 128]⟩
abbrev S128x128 : Shape := ⟨2, ![128, 128]⟩
abbrev S32768x128 : Shape := ⟨2, ![32768, 128]⟩
abbrev S32x32 : Shape := ⟨2, ![32, 32]⟩
abbrev S_ : Shape := ⟨0, ![]⟩
abbrev S32x1x32x1 : Shape := ⟨4, ![32, 1, 32, 1]⟩
abbrev S1x4x1x128 : Shape := ⟨4, ![1, 4, 1, 128]⟩
abbrev S32x4x32x128 : Shape := ⟨4, ![32, 4, 32, 128]⟩
abbrev S128x4096 : Shape := ⟨2, ![128, 4096]⟩
abbrev S1x1x1x128 : Shape := ⟨4, ![1, 1, 1, 128]⟩
abbrev S1x1x32x128 : Shape := ⟨4, ![1, 1, 32, 128]⟩
abbrev S1x4096 : Shape := ⟨2, ![1, 4096]⟩
abbrev S128x2 : Shape := ⟨2, ![128, 2]⟩
abbrev S1x128x1x2 : Shape := ⟨4, ![1, 128, 1, 2]⟩
abbrev S32x128x32x2 : Shape := ⟨4, ![32, 128, 32, 2]⟩
abbrev S4096x64 : Shape := ⟨2, ![4096, 64]⟩
abbrev S1x2 : Shape := ⟨2, ![1, 2]⟩
abbrev S1x1x1x2 : Shape := ⟨4, ![1, 1, 1, 2]⟩
abbrev S1x1x32x2 : Shape := ⟨4, ![1, 1, 32, 2]⟩
abbrev S1x64 : Shape := ⟨2, ![1, 64]⟩
abbrev S32768x64 : Shape := ⟨2, ![32768, 64]⟩
abbrev S256x128 : Shape := ⟨2, ![256, 128]⟩
abbrev S256x64 : Shape := ⟨2, ![256, 64]⟩
abbrev S256x4096 : Shape := ⟨2, ![256, 4096]⟩
abbrev S1048576x2 : Shape := ⟨2, ![1048576, 2]⟩

abbrev nBuf : Space → Nat
  | .hbm => 35
  | .vmem => 8
  | .smem => 0
  | _ => 0

abbrev bufTy : (tb : Table) → Fin (tcTables nBuf tb) → BufTy
  | .hbm, ⟨0, _⟩ => ⟨S1048576x4, .f32⟩
  | .hbm, ⟨1, _⟩ => ⟨S4x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S32768x128, .f32⟩
  | .hbm, ⟨6, _⟩ => ⟨S32x32, .i32⟩
  | .hbm, ⟨7, _⟩ => ⟨S32x32, .i32⟩
  | .hbm, ⟨8, _⟩ => ⟨S_, .i32⟩
  | .hbm, ⟨9, _⟩ => ⟨S32x32, .i32⟩
  | .hbm, ⟨10, _⟩ => ⟨S32x32, .i32⟩
  | .hbm, ⟨11, _⟩ => ⟨S32x32, .i1⟩
  | .hbm, ⟨12, _⟩ => ⟨S32x32, .f32⟩
  | .hbm, ⟨13, _⟩ => ⟨S32x1x32x1, .f32⟩
  | .hbm, ⟨14, _⟩ => ⟨S1x4x1x128, .f32⟩
  | .hbm, ⟨15, _⟩ => ⟨S32x4x32x128, .f32⟩
  | .hbm, ⟨16, _⟩ => ⟨S32x4x32x128, .f32⟩
  | .hbm, ⟨17, _⟩ => ⟨S32x4x32x128, .f32⟩
  | .hbm, ⟨18, _⟩ => ⟨S128x4096, .f32⟩
  | .hbm, ⟨19, _⟩ => ⟨S1x1x1x128, .f32⟩
  | .hbm, ⟨20, _⟩ => ⟨S1x1x32x128, .f32⟩
  | .hbm, ⟨21, _⟩ => ⟨S1x4096, .f32⟩
  | .hbm, ⟨22, _⟩ => ⟨S128x2, .f32⟩
  | .hbm, ⟨23, _⟩ => ⟨S32x1x32x1, .f32⟩
  | .hbm, ⟨24, _⟩ => ⟨S1x128x1x2, .f32⟩
  | .hbm, ⟨25, _⟩ => ⟨S32x128x32x2, .f32⟩
  | .hbm, ⟨26, _⟩ => ⟨S32x128x32x2, .f32⟩
  | .hbm, ⟨27, _⟩ => ⟨S32x128x32x2, .f32⟩
  | .hbm, ⟨28, _⟩ => ⟨S4096x64, .f32⟩
  | .hbm, ⟨29, _⟩ => ⟨S1x2, .f32⟩
  | .hbm, ⟨30, _⟩ => ⟨S1x1x1x2, .f32⟩
  | .hbm, ⟨31, _⟩ => ⟨S1x1x32x2, .f32⟩
  | .hbm, ⟨32, _⟩ => ⟨S1x64, .f32⟩
  | .hbm, ⟨33, _⟩ => ⟨S32768x64, .f32⟩
  | .hbm, ⟨34, _⟩ => ⟨S1048576x2, .f32⟩
  | .local _ .vmem, ⟨0, _⟩ => ⟨S256x128, .f32⟩
  | .local _ .vmem, ⟨1, _⟩ => ⟨S256x128, .f32⟩
  | .local _ .vmem, ⟨2, _⟩ => ⟨S128x4096, .f32⟩
  | .local _ .vmem, ⟨3, _⟩ => ⟨S1x4096, .f32⟩
  | .local _ .vmem, ⟨4, _⟩ => ⟨S4096x64, .f32⟩
  | .local _ .vmem, ⟨5, _⟩ => ⟨S1x64, .f32⟩
  | .local _ .vmem, ⟨6, _⟩ => ⟨S256x64, .f32⟩
  | .local _ .vmem, ⟨7, _⟩ => ⟨S256x64, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1048576x4_S32768x128 : S1048576x4.ShapeCasts S32768x128
  bcast_S_S32x32 : S_.BroadcastsInDim S32x32 (![] : Fin 0 → Fin S32x32.rank)
  bcast_S32x32_S32x1x32x1_0_2 : S32x32.BroadcastsInDim S32x1x32x1 (![0, 2] : Fin 2 → Fin S32x1x32x1.rank)
  bcast_S4x128_S1x4x1x128_1_3 : S4x128.BroadcastsInDim S1x4x1x128 (![1, 3] : Fin 2 → Fin S1x4x1x128.rank)
  bcast_S32x1x32x1_S32x4x32x128_0_1_2_3 : S32x1x32x1.BroadcastsInDim S32x4x32x128 (![0, 1, 2, 3] : Fin 4 → Fin S32x4x32x128.rank)
  bcast_S1x4x1x128_S32x4x32x128_0_1_2_3 : S1x4x1x128.BroadcastsInDim S32x4x32x128 (![0, 1, 2, 3] : Fin 4 → Fin S32x4x32x128.rank)
  shapeCasts_S32x4x32x128_S128x4096 : S32x4x32x128.ShapeCasts S128x4096
  shapeCasts_S1x128_S1x1x1x128 : S1x128.ShapeCasts S1x1x1x128
  bcast_S1x1x1x128_S1x1x32x128_0_1_2_3 : S1x1x1x128.BroadcastsInDim S1x1x32x128 (![0, 1, 2, 3] : Fin 4 → Fin S1x1x32x128.rank)
  shapeCasts_S1x1x32x128_S1x4096 : S1x1x32x128.ShapeCasts S1x4096
  slices_S128x128_S128x2_0_0 : S128x128.Slices ![0, 0] S128x2
  bcast_S128x2_S1x128x1x2_1_3 : S128x2.BroadcastsInDim S1x128x1x2 (![1, 3] : Fin 2 → Fin S1x128x1x2.rank)
  bcast_S32x1x32x1_S32x128x32x2_0_1_2_3 : S32x1x32x1.BroadcastsInDim S32x128x32x2 (![0, 1, 2, 3] : Fin 4 → Fin S32x128x32x2.rank)
  bcast_S1x128x1x2_S32x128x32x2_0_1_2_3 : S1x128x1x2.BroadcastsInDim S32x128x32x2 (![0, 1, 2, 3] : Fin 4 → Fin S32x128x32x2.rank)
  shapeCasts_S32x128x32x2_S4096x64 : S32x128x32x2.ShapeCasts S4096x64
  slices_S1x128_S1x2_0_0 : S1x128.Slices ![0, 0] S1x2
  shapeCasts_S1x2_S1x1x1x2 : S1x2.ShapeCasts S1x1x1x2
  bcast_S1x1x1x2_S1x1x32x2_0_1_2_3 : S1x1x1x2.BroadcastsInDim S1x1x32x2 (![0, 1, 2, 3] : Fin 4 → Fin S1x1x32x2.rank)
  shapeCasts_S1x1x32x2_S1x64 : S1x1x32x2.ShapeCasts S1x64
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x4096_S1x4096_0_0 : ∀ a, (![0, 0] : Fin 2 → Nat) a + S1x4096.size a ≤ S1x4096.size a
  h_S1x4096 : 0 < S1x4096.numel
  broadcasts_S1x4096_S256x4096 : S1x4096.Broadcasts S256x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  shapeCasts_S32768x64_S1048576x2 : S32768x64.ShapeCasts S1048576x2
  dot_S256x128_S128x4096_S256x4096_1_0_0_1_n_n_wf : DotDims.WF S256x128 S128x4096 S256x4096 [1] [0] [0] [1] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S32768x128.size a
  hwx0_0 : ∀ i : grid0.Coords, EltTy.bits .f32 = 32 ∨ (Rect.block (s := S32768x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .f32 = 32 ∨ (Rect.block (s := S4096x64) S4096x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S32768x64.size a
  hwx0_5 : ∀ i : grid0.Coords, EltTy.bits .f32 = 32 ∨ (Rect.block (s := S32768x64) S256x64.size (cc0_transform_5 i) (hinb0_5 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x4 : Shape := ⟨2, ![1048576, 4]⟩
abbrev S4x128 : Shape := ⟨2, ![4, 128]⟩
abbrev S1x128 : Shape := ⟨2, ![1, 128]⟩
abbrev S128x128 : Shape := ⟨2, ![128, 128]⟩
abbrev S1048576x128 : Shape := ⟨2, ![1048576, 128]⟩
abbrev S1048576x2 : Shape := ⟨2, ![1048576, 2]⟩
abbrev S512x4 : Shape := ⟨2, ![512, 4]⟩
abbrev S512x128 : Shape := ⟨2, ![512, 128]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S1048576x4, .f32⟩
  | .hbm, ⟨1, _⟩ => ⟨S4x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S1048576x128, .f32⟩
  | .hbm, ⟨6, _⟩ => ⟨S1048576x2, .f32⟩
  | .local _ .vmem, ⟨0, _⟩ => ⟨S512x4, .f32⟩
  | .local _ .vmem, ⟨1, _⟩ => ⟨S512x4, .f32⟩
  | .local _ .vmem, ⟨2, _⟩ => ⟨S4x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1048576x128_S1048576x2_0_0 : S1048576x128.Slices ![0, 0] S1048576x2
  inb_S512x4_S512x4_0_0 : ∀ a, (![0, 0] : Fin 2 → Nat) a + S512x4.size a ≤ S512x4.size a
  h_S512x4 : 0 < S512x4.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S512x4_o0_0_S512x1 : S512x4.Slices ![0, 0] S512x1
  inb_S4x128_S1x128_0_0 : ∀ a, (![0, 0] : Fin 2 → Nat) a + S1x128.size a ≤ S4x128.size a
  broadcasts_S512x1_S512x128 : S512x1.Broadcasts S512x128
  slices_S512x4_o0_1_S512x1 : S512x4.Slices ![0, 1] S512x1
  inb_S4x128_S1x128_1_0 : ∀ a, (![1, 0] : Fin 2 → Nat) a + S1x128.size a ≤ S4x128.size a
  slices_S512x4_o0_2_S512x1 : S512x4.Slices ![0, 2] S512x1
  inb_S4x128_S1x128_2_0 : ∀ a, (![2, 0] : Fin 2 → Nat) a + S1x128.size a ≤ S4x128.size a
  slices_S512x4_o0_3_S512x1 : S512x4.Slices ![0, 3] S512x1
  inb_S4x128_S1x128_3_0 : ∀ a, (![3, 0] : Fin 2 → Nat) a + S1x128.size a ≤ S4x128.size a
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4.size a ≤ S1048576x4.size a
  hwx0_0 : ∀ i : grid0.Coords, EltTy.bits .f32 = 32 ∨ (Rect.block (s := S1048576x4) S512x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S1048576x128.size a
  hwx0_5 : ∀ i : grid0.Coords, EltTy.bits .f32 = 32 ∨ (Rect.block (s := S1048576x128) S512x128.size (cc0_transform_5 i) (hinb0_5 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The function both programs compute: a two-layer perceptron on each batch row.

  For a batch row i the hidden unit c is

      h(i, c) = max(b1(c) + x(i,0)·w1(0,c) + x(i,1)·w1(1,c) + x(i,2)·w1(2,c) + x(i,3)·w1(3,c), 0),

  the sum associated to the left starting from the bias, and the logit of action a is

      out(i, a) = (∑ c < 128, h(i, c) · w2(c, a)) + b2(a),

  where only the first two of the 128 columns of w2 and b2 are read. Everything is over the extended reals; the
  additions are written in one fixed order, which is the order one of the two programs uses, and the other program's
  order is brought to this one by commutativity and associativity of addition alone.
-/
import Idealize.ShloMosaic.PureOps.Ideal
import Idealize.ShloMosaic.Lib.ValueIdx

noncomputable section

open scoped BigOperators

namespace Cert.Spec

open Idealize.ShloMosaic Idealize.ShloMosaic.ValueIdx

/-- Column a < 2 of the 128 columns of the second layer's padded parameters. -/
def col2 (a : Fin 2) : Fin 128 := ⟨a.val, by omega⟩

/-- Hidden unit c of batch row i after the rectifier: the bias, then the four products added one after the other. -/
def hid (x : FVec Ideal ⟨2, ![1048576, 4]⟩ .f32) (w1 : FVec Ideal ⟨2, ![4, 128]⟩ .f32) (b1 : FVec Ideal ⟨2, ![1, 128]⟩ .f32)
    (i : Fin 1048576) (c : Fin 128) : EReal :=
  max ((((b1 (ix2 0 c) + x (ix2 i 0) * w1 (ix2 0 c)) + x (ix2 i 1) * w1 (ix2 1 c)) + x (ix2 i 2) * w1 (ix2 2 c))
    + x (ix2 i 3) * w1 (ix2 3 c)) 0

/-- Logit a of batch row i: the hidden row times column a of the second layer's weights, plus its bias. -/
def logit (x : FVec Ideal ⟨2, ![1048576, 4]⟩ .f32) (w1 : FVec Ideal ⟨2, ![4, 128]⟩ .f32) (b1 : FVec Ideal ⟨2, ![1, 128]⟩ .f32)
    (w2 : FVec Ideal ⟨2, ![128, 128]⟩ .f32) (b2 : FVec Ideal ⟨2, ![1, 128]⟩ .f32) (i : Fin 1048576) (a : Fin 2) : EReal :=
  (∑ c : Fin 128, hid x w1 b1 i c * w2 (ix2 c (col2 a))) + b2 (ix2 0 (col2 a))

/-- The whole result array, index by index. -/
def logits (x : FVec Ideal ⟨2, ![1048576, 4]⟩ .f32) (w1 : FVec Ideal ⟨2, ![4, 128]⟩ .f32) (b1 : FVec Ideal ⟨2, ![1, 128]⟩ .f32)
    (w2 : FVec Ideal ⟨2, ![128, 128]⟩ .f32) (b2 : FVec Ideal ⟨2, ![1, 128]⟩ .f32) : FVec Ideal ⟨2, ![1048576, 2]⟩ .f32 :=
  fun o => logit x w1 b1 w2 b2 (o 0) (o 1)

end Cert.Spec

end
-- ==== Proof.KHost.lean ====
/-
  The five arrays the packed kernel's region is launched on, read at an index.

  The host operations before the region build, from the arguments x, w1, b1, w2, b2:
  * the packed batch, 32 batch rows to a 128-wide row: entry (r, p) is x(32·r + p/4, p mod 4);
  * the block-diagonal first-layer weights: entry (p, q) is δ(p/4, q/128) · w1(p mod 4, q mod 128), δ the 0/1 indicator
    of equality (made on the host from two index grids compared and converted to a number);
  * the first bias repeated 32 times: entry (0, q) is b1(0, q mod 128);
  * the block-diagonal second-layer weights, from the first two columns: entry (q, s) is
    δ(q/128, s/2) · w2(q mod 128, s mod 2);
  * the second bias's first two entries repeated 32 times: entry (0, s) is b2(0, s mod 2).
  Each reshape is row-major, so a flat position is split by division and remainder.
-/
import proofs.«123240_g2000403565215025_pallasbulk_1037_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.HostArrays

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The 0/1 indicator of equality of two block numbers, as an extended real. -/
def delta (a b : Nat) : EReal := if a = b then 1 else 0

/-! ## The reshapes: a flat row-major position split by division and remainder -/

section Layout
variable {α : Type}

/-- 32 batch rows to a packed row: entry (r, p) of the packed array is entry (32·r + p/4, p mod 4). -/
theorem cast_pack (x : S1048576x4.Idx → α) (r : Fin 32768) (p : Fin 128) :
    shapeCast S32768x128 x shapeCasts_S1048576x4_S32768x128 (ix2 r p)
      = x (ix2 (⟨32 * r.val + p.val / 4, by omega⟩ : Fin 1048576) (⟨p.val % 4, by omega⟩ : Fin 4)) :=
  shapeCast_apply x _ _ _ (by
    rw [Shape.rowMajor_val_two, Shape.rowMajor_val_two]
    show (32 * r.val + p.val / 4) * 4 + p.val % 4 = r.val * 128 + p.val
    omega)

/-- The four-axis block array (j', k, j, c) laid out as 128 × 4096: row 4·j' + k, column 128·j + c. -/
theorem cast_blocks1 (x : S32x4x32x128.Idx → α) (p : Fin 128) (q : Fin 4096) :
    shapeCast S128x4096 x shapeCasts_S32x4x32x128_S128x4096 (ix2 p q)
      = x (ix4 (⟨p.val / 4, by omega⟩ : Fin 32) (⟨p.val % 4, by omega⟩ : Fin 4)
            (⟨q.val / 128, by omega⟩ : Fin 32) (⟨q.val % 128, by omega⟩ : Fin 128)) :=
  shapeCast_apply x _ _ _ (by
    rw [Shape.rowMajor_val_four, Shape.rowMajor_val_two]
    show ((p.val / 4 * 4 + p.val % 4) * 32 + q.val / 128) * 128 + q.val % 128 = p.val * 4096 + q.val
    omega)

/-- The four-axis block array (j', c, j, a) laid out as 4096 × 64: row 128·j' + c, column 2·j + a. -/
theorem cast_blocks2 (x : S32x128x32x2.Idx → α) (q : Fin 4096) (s : Fin 64) :
    shapeCast S4096x64 x shapeCasts_S32x128x32x2_S4096x64 (ix2 q s)
      = x (ix4 (⟨q.val / 128, by omega⟩ : Fin 32) (⟨q.val % 128, by omega⟩ : Fin 128)
            (⟨s.val / 2, by omega⟩ : Fin 32) (⟨s.val % 2, by omega⟩ : Fin 2)) :=
  shapeCast_apply x _ _ _ (by
    rw [Shape.rowMajor_val_four, Shape.rowMajor_val_two]
    show ((q.val / 128 * 128 + q.val % 128) * 32 + s.val / 2) * 2 + s.val % 2 = q.val * 64 + s.val
    omega)

/-- 32 copies of a 128-wide row laid side by side: column q is copy q/128, entry q mod 128. -/
theorem cast_tile1 (x : S1x1x32x128.Idx → α) (q : Fin 4096) :
    shapeCast S1x4096 x shapeCasts_S1x1x32x128_S1x4096 (ix2 (0 : Fin 1) q)
      = x (ix4 (0 : Fin 1) (0 : Fin 1) (⟨q.val / 128, by omega⟩ : Fin 32) (⟨q.val % 128, by omega⟩ : Fin 128)) :=
  shapeCast_apply x _ _ _ (by
    rw [Shape.rowMajor_val_four, Shape.rowMajor_val_two]
    show ((0 * 1 + 0) * 32 + q.val / 128) * 128 + q.val % 128 = 0 * 4096 + q.val
    omega)

/-- 32 copies of a pair laid side by side: column s is copy s/2, entry s mod 2. -/
theorem cast_tile2 (x : S1x1x32x2.Idx → α) (s : Fin 64) :
    shapeCast S1x64 x shapeCasts_S1x1x32x2_S1x64 (ix2 (0 : Fin 1) s)
      = x (ix4 (0 : Fin 1) (0 : Fin 1) (⟨s.val / 2, by omega⟩ : Fin 32) (⟨s.val % 2, by omega⟩ : Fin 2)) :=
  shapeCast_apply x _ _ _ (by
    rw [Shape.rowMajor_val_four, Shape.rowMajor_val_two]
    show ((0 * 1 + 0) * 32 + s.val / 2) * 2 + s.val % 2 = 0 * 64 + s.val
    omega)

/-- A 1 × n row seen with two more leading unit axes. -/
theorem cast_row128 (x : S1x128.Idx → α) (u v w : Fin 1) (e : Fin 128) :
    shapeCast S1x1x1x128 x shapeCasts_S1x128_S1x1x1x128 (ix4 u v w e) = x (ix2 (0 : Fin 1) e) :=
  shapeCast_apply x _ _ _ (by
    rw [Shape.rowMajor_val_two, Shape.rowMajor_val_four]
    show 0 * 128 + e.val = ((u.val * 1 + v.val) * 1 + w.val) * 128 + e.val
    omega)

theorem cast_row2 (x : S1x2.Idx → α) (u v w : Fin 1) (e : Fin 2) :
    shapeCast S1x1x1x2 x shapeCasts_S1x2_S1x1x1x2 (ix4 u v w e) = x (ix2 (0 : Fin 1) e) :=
  shapeCast_apply x _ _ _ (by
    rw [Shape.rowMajor_val_two, Shape.rowMajor_val_four]
    show 0 * 2 + e.val = ((u.val * 1 + v.val) * 1 + w.val) * 2 + e.val
    omega)

/-! ## The broadcasts: the operand is read at the coordinates the broadcast keeps -/

/-- The identity pattern spread over the block array: entry (j', k, j, c) reads (j', j). -/
theorem bcast_eye1 (E : S32x32.Idx → α) (a : Fin 32) (k : Fin 4) (b : Fin 32) (e : Fin 128) :
    broadcastInDim S32x4x32x128 ![0, 1, 2, 3] bcast_S32x1x32x1_S32x4x32x128_0_1_2_3
        (broadcastInDim S32x1x32x1 ![0, 2] bcast_S32x32_S32x1x32x1_0_2 E) (ix4 a k b e) = E (ix2 a b) := by
  refine (broadcastInDim_apply _ _ _ (ix4 a k b e) (ix4 a (0 : Fin 1) b (0 : Fin 1)) fun ax => ?_).trans ?_
  · match ax with
    | ⟨0, _⟩ => rfl
    | ⟨1, _⟩ => rfl
    | ⟨2, _⟩ => rfl
    | ⟨3, _⟩ => rfl
  · exact broadcastInDim_apply _ _ _ _ (ix2 a b) fun ax => by
      match ax with
      | ⟨0, _⟩ => rfl
      | ⟨1, _⟩ => rfl

theorem bcast_eye2 (E : S32x32.Idx → α) (a : Fin 32) (k : Fin 128) (b : Fin 32) (e : Fin 2) :
    broadcastInDim S32x128x32x2 ![0, 1, 2, 3] bcast_S32x1x32x1_S32x128x32x2_0_1_2_3
        (broadcastInDim S32x1x32x1 ![0, 2] bcast_S32x32_S32x1x32x1_0_2 E) (ix4 a k b e) = E (ix2 a b) := by
  refine (broadcastInDim_apply _ _ _ (ix4 a k b e) (ix4 a (0 : Fin 1) b (0 : Fin 1)) fun ax => ?_).trans ?_
  · match ax with
    | ⟨0, _⟩ => rfl
    | ⟨1, _⟩ => rfl
    | ⟨2, _⟩ => rfl
    | ⟨3, _⟩ => rfl
  · exact broadcastInDim_apply _ _ _ _ (ix2 a b) fun ax => by
      match ax with
      | ⟨0, _⟩ => rfl
      | ⟨1, _⟩ => rfl

/-- The first-layer weights spread over the block array: entry (j', k, j, c) reads (k, c). -/
theorem bcast_w1 (w : S4x128.Idx → α) (a : Fin 32) (k : Fin 4) (b : Fin 32) (e : Fin 128) :
    broadcastInDim S32x4x32x128 ![0, 1, 2, 3] bcast_S1x4x1x128_S32x4x32x128_0_1_2_3
        (broadcastInDim S1x4x1x128 ![1, 3] bcast_S4x128_S1x4x1x128_1_3 w) (ix4 a k b e) = w (ix2 k e) := by
  refine (broadcastInDim_apply _ _ _ (ix4 a k b e) (ix4 (0 : Fin 1) k (0 : Fin 1) e) fun ax => ?_).trans ?_
  · match ax with
    | ⟨0, _⟩ => rfl
    | ⟨1, _⟩ => rfl
    | ⟨2, _⟩ => rfl
    | ⟨3, _⟩ => rfl
  · exact broadcastInDim_apply _ _ _ _ (ix2 k e) fun ax => by
      match ax with
      | ⟨0, _⟩ => rfl
      | ⟨1, _⟩ => rfl

/-- The second-layer weights' two columns spread over the block array: entry (j', c, j, a) reads (c, a). -/
theorem bcast_w2 (w : S128x2.Idx → α) (a : Fin 32) (k : Fin 128) (b : Fin 32) (e : Fin 2) :
    broadcastInDim S32x128x32x2 ![0, 1, 2, 3] bcast_S1x128x1x2_S32x128x32x2_0_1_2_3
        (broadcastInDim S1x128x1x2 ![1, 3] bcast_S128x2_S1x128x1x2_1_3 w) (ix4 a k b e) = w (ix2 k e) := by
  refine (broadcastInDim_apply _ _ _ (ix4 a k b e) (ix4 (0 : Fin 1) k (0 : Fin 1) e) fun ax => ?_).trans ?_
  · match ax with
    | ⟨0, _⟩ => rfl
    | ⟨1, _⟩ => rfl
    | ⟨2, _⟩ => rfl
    | ⟨3, _⟩ => rfl
  · exact broadcastInDim_apply _ _ _ _ (ix2 k e) fun ax => by
      match ax with
      | ⟨0, _⟩ => rfl
      | ⟨1, _⟩ => rfl

/-- A row repeated 32 times: copy b, entry e reads entry e. -/
theorem bcast_tile1 (x : S1x1x1x128.Idx → α) (b : Fin 32) (e : Fin 128) :
    broadcastInDim S1x1x32x128 ![0, 1, 2, 3] bcast_S1x1x1x128_S1x1x32x128_0_1_2_3 x (ix4 (0 : Fin 1) (0 : Fin 1) b e)
      = x (ix4 (0 : Fin 1) (0 : Fin 1) (0 : Fin 1) e) :=
  broadcastInDim_apply _ _ _ _ _ fun ax => by
    match ax with
    | ⟨0, _⟩ => rfl
    | ⟨1, _⟩ => rfl
    | ⟨2, _⟩ => rfl
    | ⟨3, _⟩ => rfl

theorem bcast_tile2 (x : S1x1x1x2.Idx → α) (b : Fin 32) (e : Fin 2) :
    broadcastInDim S1x1x32x2 ![0, 1, 2, 3] bcast_S1x1x1x2_S1x1x32x2_0_1_2_3 x (ix4 (0 : Fin 1) (0 : Fin 1) b e)
      = x (ix4 (0 : Fin 1) (0 : Fin 1) (0 : Fin 1) e) :=
  broadcastInDim_apply _ _ _ _ _ fun ax => by
    match ax with
    | ⟨0, _⟩ => rfl
    | ⟨1, _⟩ => rfl
    | ⟨2, _⟩ => rfl
    | ⟨3, _⟩ => rfl

/-! ## The slices: the first two columns -/

theorem slice_w2 (w : S128x128.Idx → α) (k : Fin 128) (e : Fin 2) :
    extractStridedSlice S128x2 ![0, 0] w slices_S128x128_S128x2_0_0 (ix2 k e)
      = w (ix2 k (⟨e.val, by omega⟩ : Fin 128)) :=
  extractStridedSlice_apply _ _ _ _ _ fun ax => by
    match ax with
    | ⟨0, _⟩ => show k.val = 0 + k.val; omega
    | ⟨1, _⟩ => show e.val = 0 + e.val; omega

theorem slice_b2 (x : S1x128.Idx → α) (e : Fin 2) :
    extractStridedSlice S1x2 ![0, 0] x slices_S1x128_S1x2_0_0 (ix2 (0 : Fin 1) e)
      = x (ix2 (0 : Fin 1) (⟨e.val, by omega⟩ : Fin 128)) :=
  extractStridedSlice_apply _ _ _ _ _ fun ax => by
    match ax with
    | ⟨0, _⟩ => show (0 : ℕ) = 0 + 0; omega
    | ⟨1, _⟩ => show e.val = 0 + e.val; omega

end Layout

/-! ## The identity pattern -/

/-- The 32 × 32 identity pattern as the host makes it: the row numbers (plus a zero word) compared for equality with the
    column numbers, the one-bit answer converted to a number. -/
def eye : S32x32.Idx → EReal :=
  uitofp (F := Ideal) .f32
    (cmpi .eq (addi (iotaInDim S32x32 32 0) (broadcastInDim S32x32 ![] bcast_S_S32x32 (constantI S_ 32 0#32)))
      (iotaInDim S32x32 32 1))

/-- Two numbers below 32 are equal exactly when the 32-bit words that hold them are (adding the zero word changes nothing). -/
theorem word_eq_iff (a b : Fin 32) :
    IntOp.cmpi .eq (IntOp.addi (BitVec.ofNat 32 a.val) 0#32) (BitVec.ofNat 32 b.val) = 1#1 ↔ a.val = b.val := by
  rw [StableHlo.Predicate.cmpi_eq_iff]
  show BitVec.ofNat 32 a.val + 0#32 = BitVec.ofNat 32 b.val ↔ _
  rw [BitVec.add_zero]
  constructor
  · intro h
    have h' := congrArg BitVec.toNat h
    simp only [BitVec.toNat_ofNat] at h'
    have ha := a.isLt
    have hb := b.isLt
    omega
  · intro h
    rw [h]

/-- Entry (a, b) of the pattern is 1 when a = b and 0 otherwise. -/
theorem eye_apply (a b : Fin 32) : eye (ix2 a b) = delta a.val b.val := by
  show (((IntOp.cmpi .eq (IntOp.addi (BitVec.ofNat 32 a.val) 0#32) (BitVec.ofNat 32 b.val)).toNat : ℝ) : EReal) = delta a.val b.val
  unfold delta
  by_cases hab : a.val = b.val
  · rw [if_pos hab, (word_eq_iff a b).mpr hab]
    show (((1 : ℕ) : ℝ) : EReal) = 1
    rw [Nat.cast_one, EReal.coe_one]
  · rw [if_neg hab, eq_zero_of_ne_one (fun h => hab ((word_eq_iff a b).mp h))]
    show (((0 : ℕ) : ℝ) : EReal) = 0
    rw [Nat.cast_zero, EReal.coe_zero]

/-! ## The five arrays as terms of the arguments

Each array the region is launched on is the composition of the host operations that made it, applied to the arguments. -/

theorem packed_batch_eq (c : Dev nD) :
    (V m c main_v0 : S32768x128.Idx → EReal)
      = shapeCast S32768x128 (m ((c : Thread nD τ).loc main_arg0) : S1048576x4.Idx → EReal) shapeCasts_S1048576x4_S32768x128 := by
  show StableHlo.after hostOps0 (fun b => m (c, b)) (Proc.devRef .tc main_v0) = _
  after_results
  rfl

theorem block_weights1_eq (c : Dev nD) :
    (V m c main_v12 : S128x4096.Idx → EReal)
      = shapeCast S128x4096
          (mulf (F := Ideal) (φ := .f32)
            (broadcastInDim S32x4x32x128 ![0, 1, 2, 3] bcast_S32x1x32x1_S32x4x32x128_0_1_2_3
              (broadcastInDim S32x1x32x1 ![0, 2] bcast_S32x32_S32x1x32x1_0_2 eye))
            (broadcastInDim S32x4x32x128 ![0, 1, 2, 3] bcast_S1x4x1x128_S32x4x32x128_0_1_2_3
              (broadcastInDim S1x4x1x128 ![1, 3] bcast_S4x128_S1x4x1x128_1_3
                (m ((c : Thread nD τ).loc main_arg1) : S4x128.Idx → EReal))))
          shapeCasts_S32x4x32x128_S128x4096 := by
  show StableHlo.after hostOps0 (fun b => m (c, b)) (Proc.devRef .tc main_v12) = _
  after_results
  rfl

theorem tiled_bias1_eq (c : Dev nD) :
    (V m c main_v15 : S1x4096.Idx → EReal)
      = shapeCast S1x4096
          (broadcastInDim S1x1x32x128 ![0, 1, 2, 3] bcast_S1x1x1x128_S1x1x32x128_0_1_2_3
            (shapeCast S1x1x1x128 (m ((c : Thread nD τ).loc main_arg2) : S1x128.Idx → EReal) shapeCasts_S1x128_S1x1x1x128))
          shapeCasts_S1x1x32x128_S1x4096 := by
  show StableHlo.after hostOps0 (fun b => m (c, b)) (Proc.devRef .tc main_v15) = _
  after_results
  rfl

theorem block_weights2_eq (c : Dev nD) :
    (V m c main_v22 : S4096x64.Idx → EReal)
      = shapeCast S4096x64
          (mulf (F := Ideal) (φ := .f32)
            (broadcastInDim S32x128x32x2 ![0, 1, 2, 3] bcast_S32x1x32x1_S32x128x32x2_0_1_2_3
              (broadcastInDim S32x1x32x1 ![0, 2] bcast_S32x32_S32x1x32x1_0_2 eye))
            (broadcastInDim S32x128x32x2 ![0, 1, 2, 3] bcast_S1x128x1x2_S32x128x32x2_0_1_2_3
              (broadcastInDim S1x128x1x2 ![1, 3] bcast_S128x2_S1x128x1x2_1_3
                (extractStridedSlice S128x2 ![0, 0] (m ((c : Thread nD τ).loc main_arg3) : S128x128.Idx → EReal)
                  slices_S128x128_S128x2_0_0))))
          shapeCasts_S32x128x32x2_S4096x64 := by
  show StableHlo.after hostOps0 (fun b => m (c, b)) (Proc.devRef .tc main_v22) = _
  after_results
  rfl

theorem tiled_bias2_eq (c : Dev nD) :
    (V m c main_v26 : S1x64.Idx → EReal)
      = shapeCast S1x64
          (broadcastInDim S1x1x32x2 ![0, 1, 2, 3] bcast_S1x1x1x2_S1x1x32x2_0_1_2_3
            (shapeCast S1x1x1x2
              (extractStridedSlice S1x2 ![0, 0] (m ((c : Thread nD τ).loc main_arg4) : S1x128.Idx → EReal) slices_S1x128_S1x2_0_0)
              shapeCasts_S1x2_S1x1x1x2))
          shapeCasts_S1x1x32x2_S1x64 := by
  show StableHlo.after hostOps0 (fun b => m (c, b)) (Proc.devRef .tc main_v26) = _
  after_results
  rfl

/-! ## The five arrays read at an index -/

/-- The packed batch: row r holds batch rows 32·r … 32·r + 31, four entries each. -/
theorem xp_apply (c : Dev nD) (r : Fin 32768) (p : Fin 128) :
    (V m c main_v0 : S32768x128.Idx → EReal) (ix2 r p)
      = (m ((c : Thread nD τ).loc main_arg0) : S1048576x4.Idx → EReal) (ix2 ⟨32 * r.val + p.val / 4, by omega⟩ ⟨p.val % 4, by omega⟩) := by
  refine (congrFun (packed_batch_eq m c) (ix2 r p)).trans ?_
  exact cast_pack _ r p

/-- The block-diagonal first-layer weights. -/
theorem wp_apply (c : Dev nD) (p : Fin 128) (q : Fin 4096) :
    (V m c main_v12 : S128x4096.Idx → EReal) (ix2 p q)
      = delta (p.val / 4) (q.val / 128)
        * (m ((c : Thread nD τ).loc main_arg1) : S4x128.Idx → EReal) (ix2 ⟨p.val % 4, by omega⟩ ⟨q.val % 128, by omega⟩) := by
  refine (congrFun (block_weights1_eq m c) (ix2 p q)).trans ?_
  refine (cast_blocks1 _ p q).trans ?_
  refine (mulf_apply _ _ _).trans ?_
  exact congrArg₂ (· * ·) ((bcast_eye1 eye _ _ _ _).trans (eye_apply _ _)) (bcast_w1 _ _ _ _ _)

/-- The first bias, repeated along the packed row. -/
theorem b1p_apply (c : Dev nD) (q : Fin 4096) :
    (V m c main_v15 : S1x4096.Idx → EReal) (ix2 0 q)
      = (m ((c : Thread nD τ).loc main_arg2) : S1x128.Idx → EReal) (ix2 0 ⟨q.val % 128, by omega⟩) := by
  refine (congrFun (tiled_bias1_eq m c) (ix2 0 q)).trans ?_
  refine (cast_tile1 _ q).trans ?_
  refine (bcast_tile1 _ _ _).trans ?_
  exact cast_row128 _ 0 0 0 _

/-- The block-diagonal second-layer weights, from the first two columns of the padded parameter. -/
theorem w2p_apply (c : Dev nD) (q : Fin 4096) (s : Fin 64) :
    (V m c main_v22 : S4096x64.Idx → EReal) (ix2 q s)
      = delta (q.val / 128) (s.val / 2)
        * (m ((c : Thread nD τ).loc main_arg3) : S128x128.Idx → EReal) (ix2 ⟨q.val % 128, by omega⟩ ⟨s.val % 2, by omega⟩) := by
  refine (congrFun (block_weights2_eq m c) (ix2 q s)).trans ?_
  refine (cast_blocks2 _ q s).trans ?_
  refine (mulf_apply _ _ _).trans ?_
  exact congrArg₂ (· * ·) ((bcast_eye2 eye _ _ _ _).trans (eye_apply _ _))
    ((bcast_w2 _ _ _ _ _).trans (slice_w2 _ _ _))

/-- The second bias's first two entries, repeated along the packed row. -/
theorem b2p_apply (c : Dev nD) (s : Fin 64) :
    (V m c main_v26 : S1x64.Idx → EReal) (ix2 0 s)
      = (m ((c : Thread nD τ).loc main_arg4) : S1x128.Idx → EReal) (ix2 0 ⟨s.val % 2, by omega⟩) := by
  refine (congrFun (tiled_bias2_eq m c) (ix2 0 s)).trans ?_
  refine (cast_tile2 _ s).trans ?_
  refine (bcast_tile2 _ _ _).trans ?_
  refine (cast_row2 _ 0 0 0 _).trans ?_
  exact slice_b2 _ _

end Cert.KernelIdeal.HostArrays

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KPay.lean ====
/-
  The packed kernel's body at one entry of its output block.

  On a block of 256 packed rows the body multiplies the block by the 128 × 4096 weights, adds the 4096-wide bias row,
  takes the maximum with 0, multiplies by the 4096 × 64 weights and adds the 64-wide bias row. Both products are
  accumulated into an all-zero array, so each entry is a plain sum of products; a bias row is the same for every packed
  row. Entry (y, s) is therefore

      (∑ q < 4096, max((∑ p < 128, X(y,p) · W(p,q)) + B(0,q), 0) · W'(q,s)) + B'(0,s).
-/
import proofs.«123240_g2000403565215025_pallasbulk_1037_2_alg».proof.Proof.Gen.KernelIdeal.Skeleton
import proofs.«123240_g2000403565215025_pallasbulk_1037_2_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.TcCoe Idealize.ShloMosaic.ValueIdx
open Cert.KernelIdeal Cert.KernelIdeal.Gen

/-- The packed hidden layer at packed row y, position q, from the body's first three loaded blocks. -/
def hidp (x0 : FVec Ideal S256x128 .f32) (x1 : FVec Ideal S128x4096 .f32) (x2 : FVec Ideal S1x4096 .f32) (y : Fin 256) (q : Fin 4096) : EReal :=
  max ((∑ p : Fin 128, x0 (ix2 y p) * x1 (ix2 p q)) + x2 (ix2 0 q)) 0

/-- The value the body stores, at entry (y, s) of the 256 × 64 output block, from the five loaded blocks. -/
theorem pay_apply (x0 : FVec Ideal S256x128 .f32) (x1 : FVec Ideal S128x4096 .f32) (x2 : FVec Ideal S1x4096 .f32)
    (x3 : FVec Ideal S4096x64 .f32) (x4 : FVec Ideal S1x64 .f32) (y : Fin 256) (s : Fin 64) :
    k0_pay1 (F := Ideal) x0 x1 x2 x3 x4 (ix2 y s) = (∑ q : Fin 4096, hidp x0 x1 x2 y q * x3 (ix2 q s)) + x4 (ix2 0 s) := by
  unfold k0_pay1
  simp only [shapeCast_self]
  -- the last addition: the second product plus the second bias row, which is the same on every packed row
  refine congrArg₂ (· + ·) ?_ (broadcastTo_1b_ab_apply x4 _ y s)
  -- the second product into the zero array is the sum over the 4096 hidden positions
  refine (Cert.LibDotPlain.matmul_zero_plain 256 4096 64 none _ x3 y s).trans ?_
  refine Finset.sum_congr rfl fun q _ => congrArg (· * x3 (ix2 q s)) ?_
  unfold hidp
  -- the hidden entry: the maximum of (first product + first bias row) and the zero word, which denotes 0
  refine congrArg₂ max (congrArg₂ (· + ·) ?_ (broadcastTo_1b_ab_apply x2 _ y q)) ?_
  · exact Cert.LibDotPlain.matmul_zero_plain 256 128 4096 none x0 x1 y q
  · exact Ideal.ofBits_zero_f32

end Cert.KernelIdeal.Payload

end
-- ==== Proof.LibBlockDiag.lean ====
/-
  A sum against one block of a block-diagonal factor.

  Split the positions 0 … B·K − 1 into B consecutive blocks of K. If every term of a sum over all positions carries the
  factor "1 if the position's block is j, else 0", only the K positions of block j contribute, and there the factor is
  1. This needs no distributive law: a product with the factor 0 is 0 on either side, a product with the factor 1 is
  the other factor, and a sum of zeros is zero. So it holds over the extended reals, where multiplication does not
  distribute over addition: 0 · x = x · 0 = 0 and 1 · x = x for every extended real x, the infinities included.
-/
import Idealize.ShloMosaic.PureOps.Ideal

open scoped BigOperators

namespace Cert.LibBlockDiag

/-- Position k of block j, among B·K positions: the number k + K·j. -/
def pos {B K : Nat} (j : Fin B) (k : Fin K) : Fin (B * K) := finProdFinEquiv (j, k)

theorem pos_val {B K : Nat} (j : Fin B) (k : Fin K) : (pos j k).val = k.val + K * j.val := rfl

/-- The block of position k + K·j is j. -/
theorem pos_div {B K : Nat} (j : Fin B) (k : Fin K) : (pos j k).val / K = j.val := by
  rw [pos_val]
  have hK : 0 < K := Nat.pos_of_ne_zero (by rintro rfl; exact k.elim0)
  rw [Nat.add_mul_div_left _ _ hK, Nat.div_eq_of_lt k.isLt, Nat.zero_add]

/-- Its place inside the block is k. -/
theorem pos_mod {B K : Nat} (j : Fin B) (k : Fin K) : (pos j k).val % K = k.val := by
  rw [pos_val, Nat.add_mul_mod_self_left, Nat.mod_eq_of_lt k.isLt]

/-- A sum over all B·K positions whose terms carry the indicator of block j is the sum over block j's K positions. -/
theorem sum_block {B K : Nat} (j : Fin B) (u v : Fin (B * K) → EReal) :
    ∑ p : Fin (B * K), u p * ((if p.val / K = j.val then (1 : EReal) else 0) * v p)
      = ∑ k : Fin K, u (pos j k) * v (pos j k) := by
  rw [← Equiv.sum_comp finProdFinEquiv, Fintype.sum_prod_type]
  have h1 : ∀ a : Fin B, (∑ b : Fin K, u (finProdFinEquiv (a, b)) *
        ((if (finProdFinEquiv (a, b)).val / K = j.val then (1 : EReal) else 0) * v (finProdFinEquiv (a, b))))
      = if a = j then ∑ k : Fin K, u (pos a k) * v (pos a k) else 0 := by
    intro a
    by_cases h : a = j
    · subst h
      rw [if_pos rfl]
      refine Finset.sum_congr rfl fun b _ => ?_
      rw [show (finProdFinEquiv (a, b)).val / K = a.val from pos_div a b, if_pos rfl, one_mul]
      rfl
    · rw [if_neg h]
      refine Finset.sum_eq_zero fun b _ => ?_
      rw [show (finProdFinEquiv (a, b)).val / K = a.val from pos_div a b, if_neg (fun e => h (Fin.ext e)), zero_mul, mul_zero]
  rw [Finset.sum_congr rfl fun a _ => h1 a]
  exact (Finset.sum_ite_eq' Finset.univ j fun a => ∑ k : Fin K, u (pos a k) * v (pos a k)).trans (if_pos (Finset.mem_univ j))

end Cert.LibBlockDiag
-- ==== Proof.PackedAlgebra.lean ====
/-
  The packed formula is the perceptron.

  Pack 32 batch rows into one row: packed row r, lane 4·j + k holds x(32·r + j, k). Let W be the 128 × 4096 array
  with W(4·j' + k, 128·j + c) = δ(j', j) · w1(k, c), and W' the 4096 × 64 array with
  W'(128·j' + c, 2·j + a) = δ(j', j) · w2(c, a), δ the 0/1 indicator of equality; let the biases be repeated, B(128·j + c) = b1(c)
  and B'(2·j + a) = b2(a). Then

      (∑ q < 4096, max((∑ p < 128, X(r,p) · W(p,q)) + B(q), 0) · W'(q, s)) + B'(s)

  is the logit of batch row 32·r + s/2 for action s mod 2. In the inner sum only the four lanes of block q/128
  contribute, and they give x(32·r + q/128, k) · w1(k, q mod 128); the four products and the bias are then the hidden
  unit's five summands in another order. In the outer sum only the 128 positions of block s/2 contribute, and they
  give the hidden units of batch row 32·r + s/2 against column s mod 2 of w2. Only 0 · y = y · 0 = 0, 1 · y = y and the
  commutativity and associativity of addition are used, so nothing is assumed about the entries being finite.
-/
import proofs.«123240_g2000403565215025_pallasbulk_1037_2_alg».proof.Proof.Spec
import proofs.«123240_g2000403565215025_pallasbulk_1037_2_alg».proof.Proof.LibBlockDiag
import Idealize.ShloMosaic.Lib.ValueIdx

noncomputable section

open scoped BigOperators

namespace Cert.PackedAlgebra

open Idealize.ShloMosaic Idealize.ShloMosaic.ValueIdx Cert.Spec Cert.LibBlockDiag

/-- The packed formula at packed row r and output lane s. -/
def packed (XP : FVec Ideal ⟨2, ![32768, 128]⟩ .f32) (WP : FVec Ideal ⟨2, ![128, 4096]⟩ .f32) (B1P : FVec Ideal ⟨2, ![1, 4096]⟩ .f32)
    (W2P : FVec Ideal ⟨2, ![4096, 64]⟩ .f32) (B2P : FVec Ideal ⟨2, ![1, 64]⟩ .f32) (r : Fin 32768) (s : Fin 64) : EReal :=
  (∑ q : Fin 4096, max ((∑ p : Fin 128, XP (ix2 r p) * WP (ix2 p q)) + B1P (ix2 0 q)) 0 * W2P (ix2 q s)) + B2P (ix2 0 s)

/-- Two index pairs with equal coordinates are one index. -/
theorem ix2_congr {n0 n1 : Nat} {a a' : Fin n0} {b b' : Fin n1} (ha : a = a') (hb : b = b') : ix2 a b = ix2 a' b' := by
  subst ha; subst hb; rfl

section
variable (x : FVec Ideal ⟨2, ![1048576, 4]⟩ .f32) (w1 : FVec Ideal ⟨2, ![4, 128]⟩ .f32) (b1 : FVec Ideal ⟨2, ![1, 128]⟩ .f32)
  (w2 : FVec Ideal ⟨2, ![128, 128]⟩ .f32) (b2 : FVec Ideal ⟨2, ![1, 128]⟩ .f32)
  (XP : FVec Ideal ⟨2, ![32768, 128]⟩ .f32) (WP : FVec Ideal ⟨2, ![128, 4096]⟩ .f32) (B1P : FVec Ideal ⟨2, ![1, 4096]⟩ .f32)
  (W2P : FVec Ideal ⟨2, ![4096, 64]⟩ .f32) (B2P : FVec Ideal ⟨2, ![1, 64]⟩ .f32)

/-- The inner sum: of the 128 lanes only the four of block q/128 contribute. -/
theorem inner_sum
    (hx : ∀ (r : Fin 32768) (p : Fin 128), XP (ix2 r p) = x (ix2 ⟨32 * r.val + p.val / 4, by omega⟩ ⟨p.val % 4, by omega⟩))
    (hw : ∀ (p : Fin 128) (q : Fin 4096), WP (ix2 p q)
        = (if p.val / 4 = q.val / 128 then (1 : EReal) else 0) * w1 (ix2 ⟨p.val % 4, by omega⟩ ⟨q.val % 128, by omega⟩))
    (r : Fin 32768) (q : Fin 4096) :
    ∑ p : Fin 128, XP (ix2 r p) * WP (ix2 p q)
      = ∑ k : Fin 4, x (ix2 ⟨32 * r.val + q.val / 128, by omega⟩ k) * w1 (ix2 k ⟨q.val % 128, by omega⟩) := by
  have e1 : ∑ p : Fin 128, XP (ix2 r p) * WP (ix2 p q)
      = ∑ p : Fin (32 * 4), (fun p : Fin (32 * 4) => x (ix2 ⟨32 * r.val + p.val / 4, by omega⟩ ⟨p.val % 4, by omega⟩)) p
          * ((if p.val / 4 = (⟨q.val / 128, by omega⟩ : Fin 32).val then (1 : EReal) else 0)
            * (fun p : Fin (32 * 4) => w1 (ix2 ⟨p.val % 4, by omega⟩ ⟨q.val % 128, by omega⟩)) p) :=
    Finset.sum_congr rfl fun p _ => by rw [hx, hw]
  rw [e1, sum_block]
  refine Finset.sum_congr rfl fun k _ => ?_
  have hd := pos_div (B := 32) (K := 4) ⟨q.val / 128, by omega⟩ k
  have hm := pos_mod (B := 32) (K := 4) ⟨q.val / 128, by omega⟩ k
  refine congrArg₂ (· * ·) (congrArg x (ix2_congr (Fin.ext ?_) (Fin.ext ?_))) (congrArg w1 (ix2_congr (Fin.ext ?_) rfl))
  · show 32 * r.val + (pos (⟨q.val / 128, _⟩ : Fin 32) k).val / 4 = 32 * r.val + q.val / 128
    rw [hd]
  · exact hm
  · exact hm

/-- The packed hidden entry at position q of packed row r is hidden unit q mod 128 of batch row 32·r + q/128. -/
theorem hidden_entry
    (hx : ∀ (r : Fin 32768) (p : Fin 128), XP (ix2 r p) = x (ix2 ⟨32 * r.val + p.val / 4, by omega⟩ ⟨p.val % 4, by omega⟩))
    (hw : ∀ (p : Fin 128) (q : Fin 4096), WP (ix2 p q)
        = (if p.val / 4 = q.val / 128 then (1 : EReal) else 0) * w1 (ix2 ⟨p.val % 4, by omega⟩ ⟨q.val % 128, by omega⟩))
    (hb : ∀ q : Fin 4096, B1P (ix2 0 q) = b1 (ix2 0 ⟨q.val % 128, by omega⟩))
    (r : Fin 32768) (q : Fin 4096) :
    max ((∑ p : Fin 128, XP (ix2 r p) * WP (ix2 p q)) + B1P (ix2 0 q)) 0
      = hid x w1 b1 ⟨32 * r.val + q.val / 128, by omega⟩ ⟨q.val % 128, by omega⟩ := by
  rw [inner_sum x w1 XP WP hx hw r q, hb q, Fin.sum_univ_four]
  unfold hid
  refine congrArg (max · 0) ?_
  -- the four products then the bias, against the bias then the four products
  rw [add_comm]
  simp only [← add_assoc]

/-- The packed formula is the logit of batch row 32·r + s/2, action s mod 2. -/
theorem packed_eq_logit
    (hx : ∀ (r : Fin 32768) (p : Fin 128), XP (ix2 r p) = x (ix2 ⟨32 * r.val + p.val / 4, by omega⟩ ⟨p.val % 4, by omega⟩))
    (hw : ∀ (p : Fin 128) (q : Fin 4096), WP (ix2 p q)
        = (if p.val / 4 = q.val / 128 then (1 : EReal) else 0) * w1 (ix2 ⟨p.val % 4, by omega⟩ ⟨q.val % 128, by omega⟩))
    (hb : ∀ q : Fin 4096, B1P (ix2 0 q) = b1 (ix2 0 ⟨q.val % 128, by omega⟩))
    (hw2 : ∀ (q : Fin 4096) (s : Fin 64), W2P (ix2 q s)
        = (if q.val / 128 = s.val / 2 then (1 : EReal) else 0) * w2 (ix2 ⟨q.val % 128, by omega⟩ ⟨s.val % 2, by omega⟩))
    (hb2 : ∀ s : Fin 64, B2P (ix2 0 s) = b2 (ix2 0 ⟨s.val % 2, by omega⟩))
    (r : Fin 32768) (s : Fin 64) :
    packed XP WP B1P W2P B2P r s = logit x w1 b1 w2 b2 ⟨32 * r.val + s.val / 2, by omega⟩ ⟨s.val % 2, by omega⟩ := by
  unfold packed logit
  refine congrArg₂ (· + ·) ?_ (hb2 s)
  have e1 : ∑ q : Fin 4096, max ((∑ p : Fin 128, XP (ix2 r p) * WP (ix2 p q)) + B1P (ix2 0 q)) 0 * W2P (ix2 q s)
      = ∑ q : Fin (32 * 128), (fun q : Fin (32 * 128) => hid x w1 b1 ⟨32 * r.val + q.val / 128, by omega⟩ ⟨q.val % 128, by omega⟩) q
          * ((if q.val / 128 = (⟨s.val / 2, by omega⟩ : Fin 32).val then (1 : EReal) else 0)
            * (fun q : Fin (32 * 128) => w2 (ix2 ⟨q.val % 128, by omega⟩ ⟨s.val % 2, by omega⟩)) q) :=
    Finset.sum_congr rfl fun q _ => by rw [hidden_entry x w1 b1 XP WP B1P hx hw hb r q, hw2]
  rw [e1, sum_block]
  refine Finset.sum_congr rfl fun c _ => ?_
  have hd := pos_div (B := 32) (K := 128) ⟨s.val / 2, by omega⟩ c
  have hm := pos_mod (B := 32) (K := 128) ⟨s.val / 2, by omega⟩ c
  refine congrArg₂ (· * ·) ?_ (congrArg w2 (ix2_congr (Fin.ext hm) rfl))
  show hid x w1 b1 ⟨32 * r.val + (pos (⟨s.val / 2, _⟩ : Fin 32) c).val / 128, _⟩ ⟨(pos (⟨s.val / 2, _⟩ : Fin 32) c).val % 128, _⟩ = hid x w1 b1 _ c
  congr 1
  · exact Fin.ext (by show 32 * r.val + (pos (⟨s.val / 2, _⟩ : Fin 32) c).val / 128 = 32 * r.val + s.val / 2; rw [hd])
  · exact Fin.ext hm

end

end Cert.PackedAlgebra

end
-- ==== Proof.KValue.lean ====
/-
  The packed kernel's result array, read.

  The region runs on 128 grid points; point t reads packed rows 256·t … 256·t + 255 of the packed batch and the whole
  of the four parameter arrays, and writes rows 256·t … 256·t + 255 of the 32768 × 64 packed result. By the body's value
  at an entry (Proof/KPay.lean) each written entry (r, s) is the packed formula of Proof/PackedAlgebra.lean over the five
  arrays the region is launched on; the 128 blocks tile the packed result, so after the run it holds that formula
  everywhere. The host then reshapes 32768 × 64 to 1048576 × 2 row-major: entry (i, a) is packed entry
  (i / 32, 2·(i mod 32) + a). With the five launched arrays read at an index (Proof/KHost.lean) the packed formula at that
  entry is the logit of batch row 32·(i/32) + (2·(i mod 32) + a)/2 = i for action (2·(i mod 32) + a) mod 2 = a.
-/
import proofs.«123240_g2000403565215025_pallasbulk_1037_2_alg».proof.Proof.Gen.KernelIdeal.Frame
import proofs.«123240_g2000403565215025_pallasbulk_1037_2_alg».proof.Proof.Spec
import proofs.«123240_g2000403565215025_pallasbulk_1037_2_alg».proof.Proof.KHost
import proofs.«123240_g2000403565215025_pallasbulk_1037_2_alg».proof.Proof.KPay
import proofs.«123240_g2000403565215025_pallasbulk_1037_2_alg».proof.Proof.PackedAlgebra
import Idealize.ShloMosaic.Lib.ValueIdx
import Idealize.ShloMosaic.Lib.Pipeline.Value
import Idealize.ShloMosaic.Lib.StableHlo.Run
import Idealize.ShloMosaic.Lib.Tactic

set_option maxRecDepth 16384

noncomputable section

open scoped BigOperators

namespace Cert.KernelIdeal.PackedValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The grid's points are numbered below 128. -/
theorem point_lt (t : Fin cfg0.N) : t.val < 128 :=
  lt_of_lt_of_eq t.isLt (show cfg0.N = 128 from N_0)

/-- The printed index maps over the grid: the packed batch's and the packed result's block row is the point's number,
    every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks at a point, as entries of the launched arrays -/

/-- Row y of the packed batch's block at point t is packed row 256·t + y. -/
theorem iblk0_apply (c : Dev nD) (t : Fin cfg0.N) (y : Fin 256) (p : Fin 128) :
    (iblk m c 0 t : Vec Ideal S256x128 .f32) (ix2 y p)
      = (V m c main_v0 : S32768x128.Idx → EReal) (ix2 ⟨256 * t.val + y.val, by have := point_lt t; omega⟩ p) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 256 + 1 * y.val = 256 * t.val + y.val; rw [e0]; omega
  | ⟨1, _⟩ => show win0_0.index t (1 : Fin 2) * 128 + 1 * p.val = p.val; rw [e1]; omega

/-- The first-layer weights' block is the whole array at every point. -/
theorem iblk1_apply (c : Dev nD) (t : Fin cfg0.N) (p : Fin 128) (q : Fin 4096) :
    (iblk m c 1 t : Vec Ideal S128x4096 .f32) (ix2 p q) = (V m c main_v12 : S128x4096.Idx → EReal) (ix2 p q) := by
  obtain ⟨-, -, e0, e1, -⟩ := idx_facts t
  unfold iblk
  rw [View.read_apply]
  show V m c main_v12 _ = V m c main_v12 _
  congr 1
  funext a
  apply Fin.ext
  match a with
  | ⟨0, _⟩ => show win0_1.index t (0 : Fin 2) * 128 + 1 * p.val = p.val; rw [e0]; omega
  | ⟨1, _⟩ => show win0_1.index t (1 : Fin 2) * 4096 + 1 * q.val = q.val; rw [e1]; omega

/-- So is the first bias row's. -/
theorem iblk2_apply (c : Dev nD) (t : Fin cfg0.N) (q : Fin 4096) :
    (iblk m c 2 t : Vec Ideal S1x4096 .f32) (ix2 0 q) = (V m c main_v15 : S1x4096.Idx → EReal) (ix2 0 q) := by
  obtain ⟨-, -, -, -, e0, e1, -⟩ := idx_facts t
  unfold iblk
  rw [View.read_apply]
  show V m c main_v15 _ = V m c main_v15 _
  congr 1
  funext a
  apply Fin.ext
  match a with
  | ⟨0, _⟩ => show win0_2.index t (0 : Fin 2) * 1 + 1 * 0 = 0; rw [e0]
  | ⟨1, _⟩ => show win0_2.index t (1 : Fin 2) * 4096 + 1 * q.val = q.val; rw [e1]; omega

/-- So is the second-layer weights'. -/
theorem iblk3_apply (c : Dev nD) (t : Fin cfg0.N) (q : Fin 4096) (s : Fin 64) :
    (iblk m c 3 t : Vec Ideal S4096x64 .f32) (ix2 q s) = (V m c main_v22 : S4096x64.Idx → EReal) (ix2 q s) := by
  obtain ⟨-, -, -, -, -, -, e0, e1, -⟩ := idx_facts t
  unfold iblk
  rw [View.read_apply]
  show V m c main_v22 _ = V m c main_v22 _
  congr 1
  funext a
  apply Fin.ext
  match a with
  | ⟨0, _⟩ => show win0_3.index t (0 : Fin 2) * 4096 + 1 * q.val = q.val; rw [e0]; omega
  | ⟨1, _⟩ => show win0_3.index t (1 : Fin 2) * 64 + 1 * s.val = s.val; rw [e1]; omega

/-- And the second bias row's. -/
theorem iblk4_apply (c : Dev nD) (t : Fin cfg0.N) (s : Fin 64) :
    (iblk m c 4 t : Vec Ideal S1x64 .f32) (ix2 0 s) = (V m c main_v26 : S1x64.Idx → EReal) (ix2 0 s) := by
  obtain ⟨-, -, -, -, -, -, -, -, e0, e1, -⟩ := idx_facts t
  unfold iblk
  rw [View.read_apply]
  show V m c main_v26 _ = V m c main_v26 _
  congr 1
  funext a
  apply Fin.ext
  match a with
  | ⟨0, _⟩ => show win0_4.index t (0 : Fin 2) * 1 + 1 * 0 = 0; rw [e0]
  | ⟨1, _⟩ => show win0_4.index t (1 : Fin 2) * 64 + 1 * s.val = s.val; rw [e1]; omega

/-! ## The packed result -/

/-- The packed result array: the packed formula over the five launched arrays, entry by entry. -/
def GK (c : Dev nD) : S32768x64.Idx → EReal := fun i =>
  Cert.PackedAlgebra.packed (V m c main_v0) (V m c main_v12) (V m c main_v15) (V m c main_v22) (V m c main_v26) (i 0) (i 1)

/-- What the body leaves in the output block at point t, entry (a, b): the packed formula at packed row 256·t + a. -/
theorem after5_apply (c : Dev nD) (t : Fin cfg0.N) (a : Fin 256) (b : Fin 64) :
    out0_5 (F := Ideal) (iblk m c 0 t) (iblk m c 1 t) (iblk m c 2 t) (iblk m c 3 t) (iblk m c 4 t) (ix2 a b)
      = Cert.PackedAlgebra.packed (V m c main_v0) (V m c main_v12) (V m c main_v15) (V m c main_v22) (V m c main_v26)
          ⟨256 * t.val + a.val, by have := point_lt t; omega⟩ b := by
  unfold out0_5
  rw [View.canon_unit_zero hz]
  simp only [View.ld_unit_zero (S := S256x128) hz, View.ld_unit_zero (S := S128x4096) hz, View.ld_unit_zero (S := S1x4096) hz,
    View.ld_unit_zero (S := S4096x64) hz, View.ld_unit_zero (S := S1x64) hz]
  refine (Cert.KernelIdeal.Payload.pay_apply (iblk m c 0 t) (iblk m c 1 t) (iblk m c 2 t) (iblk m c 3 t) (iblk m c 4 t) a b).trans ?_
  unfold Cert.PackedAlgebra.packed Cert.KernelIdeal.Payload.hidp
  exact congrArg₂ (· + ·)
    (Finset.sum_congr rfl fun q _ => congrArg₂ (· * ·)
      (congrArg₂ max (congrArg₂ (· + ·)
        (Finset.sum_congr rfl fun p _ => congrArg₂ (· * ·) (iblk0_apply m c t a p) (iblk1_apply m c t p q))
        (iblk2_apply m c t q)) rfl)
      (iblk3_apply m c t q b))
    (iblk4_apply m c t b)

/-- WHAT POINT t WRITES BACK is block t of the packed result. -/
theorem flushed_eq (c : Dev nD) (t : Fin cfg0.N) :
    (dats m 0 c).flushed 5 t = ((cfg0.win 5).blk t).view.read (Elt Ideal) (GK m c) := by
  show (cfg0.win 5).cut (grid0.coords t) ((dats m 0 c).after 5 t) = _
  rw [after0_5]
  funext y
  obtain ⟨a, b, rfl⟩ : ∃ (a : Fin 256) (b : Fin 64), y = ix2 a b := ⟨y 0, y 1, eq_ix2 y⟩
  obtain ⟨-, -, -, -, -, -, -, -, -, -, e0, e1⟩ := idx_facts t
  have he : ((cfg0.win 5).blk t).view.emb (ix2 a b)
      = (ix2 ⟨256 * t.val + a.val, by have := point_lt t; omega⟩ b : S32768x64.Idx) := by
    funext ax
    apply Fin.ext
    match ax with
    | ⟨0, _⟩ => show win0_5.index t (0 : Fin 2) * 256 + 1 * a.val = 256 * t.val + a.val; rw [e0]; omega
    | ⟨1, _⟩ => show win0_5.index t (1 : Fin 2) * 64 + 1 * b.val = b.val; rw [e1]; omega
  show out0_5 (F := Ideal) (iblk m c 0 t) (iblk m c 1 t) (iblk m c 2 t) (iblk m c 3 t) (iblk m c 4 t) (ix2 a b)
    = GK m c (((cfg0.win 5).blk t).view.emb (ix2 a b))
  rw [he]
  exact after5_apply m c t a b

/-- An entry of the packed result is in point t's block iff each coordinate is in the block's range on its axis. -/
theorem mem_blk (t : Fin cfg0.N) (i : S32768x64.Idx) :
    i ∈ ((cfg0.win 5).blk t).view.set ↔ ∀ a : Fin 2, win0_5.index t a * S256x64.size a ≤ (i a).val
      ∧ (i a).val < win0_5.index t a * S256x64.size a + S256x64.size a := by
  show i ∈ ((View.whole main_v27).slice (win0_5.rect t)).set ↔ _
  rw [View.set_slice_whole, Rect.mem_set_unit]
  exact Iff.rfl

/-- Packed row r is written by point r / 256: the 128 blocks tile the packed result. -/
theorem cover (i : S32768x64.Idx) :
    ∃ t : Fin cfg0.N, (cfg0.win 5).flush t = true ∧ i ∈ ((cfg0.win 5).blk t).view.set := by
  have hi0 : (i 0).val < 32768 := (i 0).isLt
  have hi1 : (i 1).val < 64 := (i 1).isLt
  have hN : (i 0).val / 256 < cfg0.N := by rw [show cfg0.N = 128 from N_0]; omega
  refine ⟨⟨(i 0).val / 256, hN⟩, flush0_5 _, ?_⟩
  obtain ⟨-, -, -, -, -, -, -, -, -, -, e0, e1⟩ := idx_facts ⟨(i 0).val / 256, hN⟩
  have e0' : win0_5.index ⟨(i 0).val / 256, hN⟩ (0 : Fin 2) = (i 0).val / 256 := e0
  rw [mem_blk]
  intro a
  match a with
  | ⟨0, _⟩ =>
    show win0_5.index ⟨(i 0).val / 256, hN⟩ (0 : Fin 2) * 256 ≤ (i 0).val
      ∧ (i 0).val < win0_5.index ⟨(i 0).val / 256, hN⟩ (0 : Fin 2) * 256 + 256
    rw [e0']; omega
  | ⟨1, _⟩ =>
    show win0_5.index ⟨(i 0).val / 256, hN⟩ (1 : Fin 2) * 64 ≤ (i 1).val
      ∧ (i 1).val < win0_5.index ⟨(i 0).val / 256, hN⟩ (1 : Fin 2) * 64 + 64
    rw [e1]; omega

/-- THE PACKED RESULT after the run is the packed formula everywhere. -/
theorem final (c : Dev nD) : (dats m 0 c).arrAt 5 cfg0.N = GK m c :=
  (dats m 0 c).arrAt_eq_of_cover 5 (GK m c) (fun t _ => flushed_eq m c t) cover

/-! ## The host's reshape of the packed result, and the run -/

/-- The result array: entry (i, a) of the reshaped packed result is packed entry (i / 32, 2·(i mod 32) + a), which is
    the logit of batch row i for action a. -/
theorem tail_eq (c : Dev nD) :
    Pipeline.afterTail₀ cfgs (dats m) 0 (V0 m) [hostOps1] c main_v28
      = Cert.Spec.logits (m ((c : Thread nD τ).loc main_arg0)) (m ((c : Thread nD τ).loc main_arg1)) (m ((c : Thread nD τ).loc main_arg2))
              (m ((c : Thread nD τ).loc main_arg3)) (m ((c : Thread nD τ).loc main_arg4)) := by
  have hA : Pipeline.withArrays spec0 c (V0 m c) (fun w => (dats m 0 c).arrAt w cfg0.N) (Proc.devRef .tc main_v27) = GK m c :=
    (Pipeline.withArrays_arr spec0 launch0.win.arr_inj c _ _ 5).trans (final m c)
  unfold Pipeline.afterTail₀
  show StableHlo.after hostOps1 _ (Proc.devRef .tc main_v28) = _
  after_results
  funext o
  obtain ⟨i, a, rfl⟩ : ∃ (i : Fin 1048576) (a : Fin 2), o = ix2 i a := ⟨o 0, o 1, eq_ix2 o⟩
  show shapeCast S1048576x2 (Pipeline.withArrays spec0 c (V0 m c) (fun w => (dats m 0 c).arrAt w cfg0.N) (Proc.devRef .tc main_v27))
      shapeCasts_S32768x64_S1048576x2 (ix2 i a) = _
  have ha : a.val < 2 := a.isLt
  have hi : i.val < 1048576 := i.isLt
  -- the packed entry with the same row-major position
  refine (shapeCast_apply _ _ (ix2 i a) (ix2 (⟨i.val / 32, by omega⟩ : Fin 32768) (⟨2 * (i.val % 32) + a.val, by omega⟩ : Fin 64)) ?_).trans ?_
  · rw [Shape.rowMajor_val_two, Shape.rowMajor_val_two]
    show i.val / 32 * 64 + (2 * (i.val % 32) + a.val) = i.val * 2 + a.val
    omega
  refine (congrFun hA _).trans ?_
  show Cert.PackedAlgebra.packed (V m c main_v0) (V m c main_v12) (V m c main_v15) (V m c main_v22) (V m c main_v26)
      (⟨i.val / 32, _⟩ : Fin 32768) (⟨2 * (i.val % 32) + a.val, _⟩ : Fin 64) = Cert.Spec.logit _ _ _ _ _ i a
  refine (Cert.PackedAlgebra.packed_eq_logit (m ((c : Thread nD τ).loc main_arg0)) (m ((c : Thread nD τ).loc main_arg1))
    (m ((c : Thread nD τ).loc main_arg2)) (m ((c : Thread nD τ).loc main_arg3)) (m ((c : Thread nD τ).loc main_arg4))
    (V m c main_v0) (V m c main_v12) (V m c main_v15) (V m c main_v22) (V m c main_v26)
    (Cert.KernelIdeal.HostArrays.xp_apply m c) (Cert.KernelIdeal.HostArrays.wp_apply m c) (Cert.KernelIdeal.HostArrays.b1p_apply m c)
    (Cert.KernelIdeal.HostArrays.w2p_apply m c) (Cert.KernelIdeal.HostArrays.b2p_apply m c) _ _).trans ?_
  congr 1
  · exact Fin.ext (by show 32 * (i.val / 32) + (2 * (i.val % 32) + a.val) / 2 = i.val; omega)
  · exact Fin.ext (by show (2 * (i.val % 32) + a.val) % 2 = a.val; omega)

/-- The packed kernel's run, read: the result array is the perceptron's logits of the argument arrays, the arguments
    unchanged. -/
theorem run : θ_run defs (onTc (τ := τ) (main (F := Ideal))) ⟨m, fun _ => 0, ρ⟩ fun r => ∀ c : Dev nD,
      r.2.mem ((c : Thread nD τ).loc main_v28)
          = Cert.Spec.logits (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v28 (Pipeline.mem_restRefs_of main_v28 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.PackedValue

end
-- ==== Proof.RValue.lean ====
/-
  The reference's result array, read.

  The reference runs a kernel over a grid of 2048 points, each handling a block of 512 batch rows, and then the host
  keeps the first two of the kernel's 128 result columns. At a point the body takes the bias row of the first layer,
  adds to it, for k = 0, 1, 2, 3 in turn, column k of the block of observations times row k of the first layer's
  weights, takes the maximum with zero, multiplies the resulting 512 × 128 hidden block by the 128 × 128 second-layer
  weights into an all-zero accumulator, and adds the second bias row. Read at entry (y, j) of the block this is

      (∑ c < 128, max(b1(c) + x(y,0)·w1(0,c) + x(y,1)·w1(1,c) + x(y,2)·w1(2,c) + x(y,3)·w1(3,c), 0) · w2(c, j)) + b2(j),

  with the additions in exactly the order the specification writes them, so nothing beyond unfolding is needed. Row y of
  the block at point t is batch row 512·t + y of the array, the four parameter arrays are handed to the body whole at
  every point, and the 2048 blocks of 512 rows tile the 1048576 rows; hence the kernel's result array is one function
  of the argument arrays, index by index, and its first two columns are the specification's logits.
-/
import proofs.«123240_g2000403565215025_pallasbulk_1037_2_alg».proof.Proof.Gen.ReferenceIdeal.Frame
import proofs.«123240_g2000403565215025_pallasbulk_1037_2_alg».proof.Proof.Spec
import proofs.«123240_g2000403565215025_pallasbulk_1037_2_alg».proof.Proof.LibDotPlain
import Idealize.ShloMosaic.Lib.ValueIdx
import Idealize.ShloMosaic.Lib.ValueLayout
import Idealize.ShloMosaic.Lib.Pipeline.Value
import Idealize.ShloMosaic.Lib.StableHlo.Run

noncomputable section

namespace Cert.ReferenceIdeal.RefValue

open Idealize.ShloMosaic Idealize.ShloMosaic.TcCoe Idealize.ShloMosaic.ValueIdx Idealize.SL.Sem
open Cert.ReferenceIdeal Cert.ReferenceIdeal.Gen
open scoped BigOperators

variable (m : (ℓ : Loc nD τ sig) → Buf (Elt Ideal) ℓ) (ρ : Dev nD → PrngReg)

/-! ## The body's arithmetic at one entry of a block -/

/-- A [512,1] column repeated along the 128 lanes reads, at (p, c), the column's entry of row p. -/
theorem bcast_col {α : Type} (v : S512x1.Idx → α) (h : S512x1.Broadcasts S512x128) (p : Fin 512) (c : Fin 128) :
    broadcastTo S512x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- Column k of a [512,4] block, cut out as a [512,1] column, reads at row p the block's entry (p, k). -/
theorem col_slice {α : Type} (o : Nat) (x : S512x4.Idx → α) (h : S512x4.Slices ![0, o] S512x1) (p : Fin 512) (k : Fin 4)
    (hk : k.val = o) : extractStridedSlice S512x1 ![0, o] x h (ix2 p (0 : Fin 1)) = x (ix2 p k) :=
  slice2_axis1_apply o x h p (0 : Fin 1) k (by rw [hk]; rfl)

/-- Row k of the [4,128] first-layer weights, loaded as a [1,128] row, reads at lane c the weights' entry (k, c). -/
theorem row_ld (x1 : Vec Ideal S4x128 .f32) (o : Nat) (k : Fin 4) (hk : k.val = o)
    (inb : ∀ a, (![o, 0] : Fin 2 → Nat) a + S1x128.size a ≤ S4x128.size a) (c : Fin 128) :
    View.ld (Val := Elt Ideal) (e' := .f32) x1 (Rect.unit (s := S4x128) ![o, 0] S1x128.size inb) (ix2 (0 : Fin 1) c)
      = x1 (ix2 k c) := by
  show x1 _ = x1 _
  refine congrArg x1 (funext fun a => Fin.ext ?_)
  match a with
  | ⟨0, _⟩ => show o + 1 * 0 = k.val; omega
  | ⟨1, _⟩ => show 0 + 1 * c.val = c.val; omega

/-- The hidden layer of one block of 512 batch rows after the rectifier: the bias row repeated down the rows, then for
    k = 0, 1, 2, 3 in turn column k of the block (repeated along the lanes) times row k of the weights (repeated down the
    rows) added on, and the maximum with zero. -/
def hidBlk (x : Vec Ideal S512x4 .f32) (b1 r0 r1 r2 r3 : Vec Ideal S1x128 .f32) : FVec Ideal S512x128 .f32 :=
  maximumf
    (addf
      (addf
        (addf
          (addf (broadcastTo S512x128 (shapeCast S1x128 b1 shapeCasts_S1x128_S1x128) broadcasts_S1x128_S512x128)
            (mulf
              (broadcastTo S512x128 (extractStridedSlice S512x1 ![0, 0] x slices_S512x4_o0_0_S512x1) broadcasts_S512x1_S512x128)
              (broadcastTo S512x128 r0 broadcasts_S1x128_S512x128)))
          (mulf
            (broadcastTo S512x128 (extractStridedSlice S512x1 ![0, 1] x slices_S512x4_o0_1_S512x1) broadcasts_S512x1_S512x128)
            (broadcastTo S512x128 r1 broadcasts_S1x128_S512x128)))
        (mulf
          (broadcastTo S512x128 (extractStridedSlice S512x1 ![0, 2] x slices_S512x4_o0_2_S512x1) broadcasts_S512x1_S512x128)
          (broadcastTo S512x128 r2 broadcasts_S1x128_S512x128)))
      (mulf
        (broadcastTo S512x128 (extractStridedSlice S512x1 ![0, 3] x slices_S512x4_o0_3_S512x1) broadcasts_S512x1_S512x128)
        (broadcastTo S512x128 r3 broadcasts_S1x128_S512x128)))
    (broadcast S512x128 (FloatOps.ofBits FTy.f32 0#32))

/-- Entry (y, c) of the block's hidden layer: the bias of unit c, then the four products of row y's observations with
    unit c's weights added one after the other, and the maximum with zero. -/
theorem hidBlk_apply (x : Vec Ideal S512x4 .f32) (b1 r0 r1 r2 r3 : Vec Ideal S1x128 .f32) (y : Fin 512) (c : Fin 128) :
    hidBlk x b1 r0 r1 r2 r3 (ix2 y c)
      = max ((((b1 (ix2 0 c) + x (ix2 y 0) * r0 (ix2 0 c)) + x (ix2 y 1) * r1 (ix2 0 c)) + x (ix2 y 2) * r2 (ix2 0 c))
          + x (ix2 y 3) * r3 (ix2 0 c)) 0 := by
  have e0 : broadcastTo S512x128 (shapeCast S1x128 b1 shapeCasts_S1x128_S1x128) broadcasts_S1x128_S512x128 (ix2 y c)
      = b1 (ix2 0 c) :=
    (broadcastTo_1b_ab_apply _ _ y c).trans (congrFun (shapeCast_self b1 _) _)
  have ex (o : Nat) (k : Fin 4) (hk : k.val = o) (h : S512x4.Slices ![0, o] S512x1) :
      broadcastTo S512x128 (extractStridedSlice S512x1 ![0, o] x h) broadcasts_S512x1_S512x128 (ix2 y c) = x (ix2 y k) :=
    (bcast_col _ _ y c).trans (col_slice o x h y k hk)
  have er (r : Vec Ideal S1x128 .f32) : broadcastTo S512x128 r broadcasts_S1x128_S512x128 (ix2 y c) = r (ix2 0 c) :=
    broadcastTo_1b_ab_apply _ _ y c
  have ez : (FloatOps.ofBits (F := Ideal) FTy.f32 0#32) = (0 : EReal) := Ideal.ofBits_zero_f32
  unfold hidBlk
  simp only [maximumf_apply, addf_apply, mulf_apply, broadcast_apply]
  rw [e0, ex 0 0 rfl, ex 1 1 rfl, ex 2 2 rfl, ex 3 3 rfl, er r0, er r1, er r2, er r3, ez]

/-- Entry (y, j) of what the body stores: the block's hidden row y times column j of the second layer's weights —
    the product into an all-zero accumulator is the plain sum of products —, plus the second bias at lane j. -/
theorem pay_apply (x : Vec Ideal S512x4 .f32) (b1 r0 r1 r2 r3 : Vec Ideal S1x128 .f32) (w2 : Vec Ideal S128x128 .f32)
    (b2 : Vec Ideal S1x128 .f32) (y : Fin 512) (j : Fin 128) :
    k0_pay1 (F := Ideal) x b1 r0 r1 r2 r3 w2 b2 (ix2 y j)
      = (∑ c : Fin 128, hidBlk x b1 r0 r1 r2 r3 (ix2 y c) * w2 (ix2 c j)) + b2 (ix2 0 j) := by
  show (matmul dot_S512x128_S128x128_S512x128_1_0_0_1_n_n none (hidBlk x b1 r0 r1 r2 r3) w2 (constant S512x128 FTy.f32 0#32)) (ix2 y j)
      + broadcastTo S512x128 b2 broadcasts_S1x128_S512x128 (ix2 y j) = _
  rw [broadcastTo_1b_ab_apply]
  refine congrArg (· + b2 (ix2 0 j)) ?_
  exact Cert.LibDotPlain.matmul_zero_plain 512 128 128 none (hidBlk x b1 r0 r1 r2 r3) w2 y j

/-! ## The kernel's whole result array, and one block of it -/

/-- The kernel's 1048576 × 128 result as one function of the argument arrays: at (i, j) the hidden row of batch row i
    times column j of the second layer's weights, plus its bias at lane j. -/
def preLogits (x : FVec Ideal ⟨2, ![1048576, 4]⟩ .f32) (w1 : FVec Ideal ⟨2, ![4, 128]⟩ .f32) (b1 : FVec Ideal ⟨2, ![1, 128]⟩ .f32)
    (w2 : FVec Ideal ⟨2, ![128, 128]⟩ .f32) (b2 : FVec Ideal ⟨2, ![1, 128]⟩ .f32) : FVec Ideal ⟨2, ![1048576, 128]⟩ .f32 :=
  fun o => (∑ c : Fin 128, Cert.Spec.hid x w1 b1 (o 0) c * w2 (ix2 c (o 1))) + b2 (ix2 0 (o 1))

theorem hz : (![0, 0] : Fin 2 → Nat) = fun _ => 0 := funext fun a => by fin_cases a <;> rfl

/-- What the body leaves in the result's block, at entry (y, q), when the x block's row y is batch row i of the
    array: the whole-array function at (i, q). The other four windows hand the body the whole parameter arrays. -/
theorem block_at (X : Vec Ideal S1048576x4 .f32) (W1 : Vec Ideal S4x128 .f32) (B1 : Vec Ideal S1x128 .f32)
    (W2 : Vec Ideal S128x128 .f32) (B2 : Vec Ideal S1x128 .f32)
    (x0 : Vec Ideal S512x4 .f32) (x1 : Vec Ideal S4x128 .f32) (x2 : Vec Ideal S1x128 .f32) (x3 : Vec Ideal S128x128 .f32)
    (x4 : Vec Ideal S1x128 .f32) (i : Fin 1048576) (y : Fin 512) (q : Fin 128)
    (hx : ∀ k : Fin 4, x0 (ix2 y k) = X (ix2 i k)) (h1 : x1 = W1) (h2 : x2 = B1) (h3 : x3 = W2) (h4 : x4 = B2) :
    out0_5 (F := Ideal) x0 x1 x2 x3 x4 (ix2 y q) = preLogits X W1 B1 W2 B2 (ix2 i q) := by
  subst h1 h2 h3 h4
  unfold out0_5
  rw [View.canon_unit_zero hz]
  rw [View.ld_unit_zero (S := S512x4) hz, View.ld_unit_zero (S := S1x128) hz inb_S1x128_S1x128_0_0 x2,
    View.ld_unit_zero (S := S1x128) hz inb_S1x128_S1x128_0_0 x4, View.ld_unit_zero (S := S128x128) hz]
  rw [pay_apply]
  show _ = (∑ c : Fin 128, Cert.Spec.hid X x1 x2 i c * x3 (ix2 c q)) + x4 (ix2 0 q)
  refine congrArg (· + x4 (ix2 0 q)) (Finset.sum_congr rfl fun c _ => congrArg (· * x3 (ix2 c q)) ?_)
  rw [hidBlk_apply]
  unfold Cert.Spec.hid
  rw [row_ld x1 0 0 rfl, row_ld x1 1 1 rfl, row_ld x1 2 2 rfl, row_ld x1 3 3 rfl, hx 0, hx 1, hx 2, hx 3]

/-! ## The grid's blocks -/

/-- A grid point's number is below 2048. -/
theorem lt_N (t : Fin cfg0.N) : t.val < 2048 := lt_of_lt_of_eq t.isLt (show cfg0.N = 2048 from N_0)

/-- The grid has one axis of 2048 points, so point t's one coordinate is t. -/
theorem coord_val (t : Fin cfg0.N) : (grid0.coords t 0).val = t.val := by
  have ht : t.val < 2048 := lt_N t
  show t.val / grid0.stride 0 % 2048 = t.val
  rw [show grid0.stride 0 = 1 from by decide]
  omega

/-- The x window's block index at point t is (t, 0): the printed index map returns the grid coordinate as a 32-bit
    word, and t < 2048 fits. -/
theorem idx_x (t : Fin cfg0.N) : win0_0.index t (0 : Fin 2) = t.val ∧ win0_0.index t (1 : Fin 2) = 0 := by
  have ht : t.val < 2048 := lt_N t
  refine ⟨?_, rfl⟩
  show (BitVec.ofNat 32 (grid0.coords t 0).val).toNat = t.val
  rw [coord_val, BitVec.toNat_ofNat]
  exact Nat.mod_eq_of_lt (by omega)

/-- The result window's block index at point t is (t, 0) likewise. -/
theorem idx_o (t : Fin cfg0.N) : win0_5.index t (0 : Fin 2) = t.val ∧ win0_5.index t (1 : Fin 2) = 0 := by
  have ht : t.val < 2048 := lt_N t
  refine ⟨?_, rfl⟩
  show (BitVec.ofNat 32 (grid0.coords t 0).val).toNat = t.val
  rw [coord_val, BitVec.toNat_ofNat]
  exact Nat.mod_eq_of_lt (by omega)

/-- Row y of the x block at point t is batch row 512·t + y of the array. -/
theorem xblk_apply (c : Dev nD) (t : Fin cfg0.N) (y : Fin 512) (k : Fin 4) (i : Fin 1048576) (hi : i.val = 512 * t.val + y.val) :
    (iblk m c 0 t : Vec Ideal S512x4 .f32) (ix2 y k) = (V m c main_arg0 : Vec Ideal S1048576x4 .f32) (ix2 i k) := by
  obtain ⟨e0, e1⟩ := idx_x t
  show V m c main_arg0 (((cfg0.win 0).blk t).view.emb (ix2 y k)) = V m c main_arg0 (ix2 i k)
  refine congrArg (V m c main_arg0) (funext fun a => Fin.ext ?_)
  match a with
  | ⟨0, _⟩ => show win0_0.index t (0 : Fin 2) * 512 + 1 * y.val = i.val; rw [e0, hi]; omega
  | ⟨1, _⟩ => show win0_0.index t (1 : Fin 2) * 4 + 1 * k.val = k.val; rw [e1]; omega

/-- The first layer's weights are staged whole at every point. -/
theorem w1blk (c : Dev nD) (t : Fin cfg0.N) : (iblk m c 1 t : Vec Ideal S4x128 .f32) = V m c main_arg1 := by
  funext z
  show V m c main_arg1 (((cfg0.win 1).blk t).view.emb z) = V m c main_arg1 z
  refine congrArg (V m c main_arg1) (funext fun a => Fin.ext ?_)
  match a with
  | ⟨0, _⟩ => show win0_1.index t (0 : Fin 2) * 4 + 1 * (z 0).val = (z 0).val; rw [show win0_1.index t (0 : Fin 2) = 0 from rfl]; omega
  | ⟨1, _⟩ => show win0_1.index t (1 : Fin 2) * 128 + 1 * (z 1).val = (z 1).val; rw [show win0_1.index t (1 : Fin 2) = 0 from rfl]; omega

/-- The first layer's bias is staged whole at every point. -/
theorem b1blk (c : Dev nD) (t : Fin cfg0.N) : (iblk m c 2 t : Vec Ideal S1x128 .f32) = V m c main_arg2 := by
  funext z
  show V m c main_arg2 (((cfg0.win 2).blk t).view.emb z) = V m c main_arg2 z
  refine congrArg (V m c main_arg2) (funext fun a => Fin.ext ?_)
  match a with
  | ⟨0, _⟩ => show win0_2.index t (0 : Fin 2) * 1 + 1 * (z 0).val = (z 0).val; rw [show win0_2.index t (0 : Fin 2) = 0 from rfl]; omega
  | ⟨1, _⟩ => show win0_2.index t (1 : Fin 2) * 128 + 1 * (z 1).val = (z 1).val; rw [show win0_2.index t (1 : Fin 2) = 0 from rfl]; omega

/-- The second layer's weights are staged whole at every point. -/
theorem w2blk (c : Dev nD) (t : Fin cfg0.N) : (iblk m c 3 t : Vec Ideal S128x128 .f32) = V m c main_arg3 := by
  funext z
  show V m c main_arg3 (((cfg0.win 3).blk t).view.emb z) = V m c main_arg3 z
  refine congrArg (V m c main_arg3) (funext fun a => Fin.ext ?_)
  match a with
  | ⟨0, _⟩ => show win0_3.index t (0 : Fin 2) * 128 + 1 * (z 0).val = (z 0).val; rw [show win0_3.index t (0 : Fin 2) = 0 from rfl]; omega
  | ⟨1, _⟩ => show win0_3.index t (1 : Fin 2) * 128 + 1 * (z 1).val = (z 1).val; rw [show win0_3.index t (1 : Fin 2) = 0 from rfl]; omega

/-- The second layer's bias is staged whole at every point. -/
theorem b2blk (c : Dev nD) (t : Fin cfg0.N) : (iblk m c 4 t : Vec Ideal S1x128 .f32) = V m c main_arg4 := by
  funext z
  show V m c main_arg4 (((cfg0.win 4).blk t).view.emb z) = V m c main_arg4 z
  refine congrArg (V m c main_arg4) (funext fun a => Fin.ext ?_)
  match a with
  | ⟨0, _⟩ => show win0_4.index t (0 : Fin 2) * 1 + 1 * (z 0).val = (z 0).val; rw [show win0_4.index t (0 : Fin 2) = 0 from rfl]; omega
  | ⟨1, _⟩ => show win0_4.index t (1 : Fin 2) * 128 + 1 * (z 1).val = (z 1).val; rw [show win0_4.index t (1 : Fin 2) = 0 from rfl]; omega

/-- What point t writes back is block t — batch rows 512·t to 512·t + 511 — of the whole-array function of the arrays
    as the region finds them. -/
theorem flushed_eq (c : Dev nD) (t : Fin cfg0.N) :
    (dats m 0 c).flushed 5 t = ((cfg0.win 5).blk t).view.read (Elt Ideal)
      (preLogits (V m c main_arg0) (V m c main_arg1) (V m c main_arg2) (V m c main_arg3) (V m c main_arg4)) := by
  show (cfg0.win 5).cut (grid0.coords t) ((dats m 0 c).after 5 t) = _
  rw [after0_5]
  have ht : t.val < 2048 := lt_N t
  obtain ⟨e0, e1⟩ := idx_o t
  funext j
  obtain ⟨y, q, rfl⟩ : ∃ (y : Fin 512) (q : Fin 128), j = ix2 y q := ⟨j 0, j 1, eq_ix2 j⟩
  have hy : y.val < 512 := y.isLt
  have he : ((cfg0.win 5).blk t).view.emb (ix2 y q) = ix2 (⟨512 * t.val + y.val, by omega⟩ : Fin 1048576) q :=
    funext fun a => Fin.ext (by
      match a with
      | ⟨0, _⟩ => show win0_5.index t (0 : Fin 2) * 512 + 1 * y.val = 512 * t.val + y.val; rw [e0]; omega
      | ⟨1, _⟩ => show win0_5.index t (1 : Fin 2) * 128 + 1 * q.val = q.val; rw [e1]; omega)
  show out0_5 (iblk m c 0 t) (iblk m c 1 t) (iblk m c 2 t) (iblk m c 3 t) (iblk m c 4 t) (ix2 y q)
      = preLogits (V m c main_arg0) (V m c main_arg1) (V m c main_arg2) (V m c main_arg3) (V m c main_arg4)
          (((cfg0.win 5).blk t).view.emb (ix2 y q))
  rw [he]
  exact block_at (V m c main_arg0) (V m c main_arg1) (V m c main_arg2) (V m c main_arg3) (V m c main_arg4)
    (iblk m c 0 t) (iblk m c 1 t) (iblk m c 2 t) (iblk m c 3 t) (iblk m c 4 t) ⟨512 * t.val + y.val, by omega⟩ y q
    (fun k => xblk_apply m c t y k ⟨512 * t.val + y.val, by omega⟩ rfl) (w1blk m c t) (b1blk m c t) (w2blk m c t) (b2blk m c t)

/-! ## From the blocks to the array -/

/-- An index of the result array is in point t's block iff each coordinate is in the block's range on its axis. -/
theorem mem_blk (t : Fin cfg0.N) (i : S1048576x128.Idx) :
    i ∈ ((cfg0.win 5).blk t).view.set ↔ ∀ a : Fin 2, win0_5.index t a * S512x128.size a ≤ (i a).val
      ∧ (i a).val < win0_5.index t a * S512x128.size a + S512x128.size a := by
  show i ∈ ((View.whole main_call0_v0).slice (win0_5.rect t)).set ↔ _
  rw [View.set_slice_whole, Rect.mem_set_unit]
  exact Iff.rfl

/-- Every index of the result array is written back by some point: batch row r by point r / 512. -/
theorem cover (i : S1048576x128.Idx) :
    ∃ t : Fin cfg0.N, (cfg0.win 5).flush t = true ∧ i ∈ ((cfg0.win 5).blk t).view.set := by
  have hi0 : (i 0).val < 1048576 := (i 0).isLt
  have hi1 : (i 1).val < 128 := (i 1).isLt
  have hN : cfg0.N = 2048 := N_0
  obtain ⟨t, ht⟩ : ∃ t : Fin cfg0.N, t.val = (i 0).val / 512 := ⟨⟨(i 0).val / 512, by rw [hN]; omega⟩, rfl⟩
  obtain ⟨e0, e1⟩ := idx_o t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    rw [e0, ht]; omega
  | ⟨1, _⟩ =>
    show win0_5.index t (1 : Fin 2) * 128 ≤ (i 1).val ∧ (i 1).val < win0_5.index t (1 : Fin 2) * 128 + 128
    rw [e1]; omega

/-- The result array of the kernel after the run is the whole-array function of the argument arrays. -/
theorem final (c : Dev nD) : (dats m 0 c).arrAt 5 cfg0.N
    = preLogits (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5 _ (fun t _ => flushed_eq m c t) cover).trans (by
    rw [V_main_arg0 m c, V_main_arg1 m c, V_main_arg2 m c, V_main_arg3 m c, V_main_arg4 m c])

/-! ## The slice after the region, and the run -/

/-- Entry (i, j) of the kernel's result, written out. -/
theorem preLogits_apply (x : FVec Ideal ⟨2, ![1048576, 4]⟩ .f32) (w1 : FVec Ideal ⟨2, ![4, 128]⟩ .f32) (b1 : FVec Ideal ⟨2, ![1, 128]⟩ .f32)
    (w2 : FVec Ideal ⟨2, ![128, 128]⟩ .f32) (b2 : FVec Ideal ⟨2, ![1, 128]⟩ .f32) (i : Fin 1048576) (j : Fin 128) :
    preLogits x w1 b1 w2 b2 (ix2 i j) = (∑ c : Fin 128, Cert.Spec.hid x w1 b1 i c * w2 (ix2 c j)) + b2 (ix2 0 j) := rfl

/-- Logit a of batch row i, written out. -/
theorem logits_apply (x : FVec Ideal ⟨2, ![1048576, 4]⟩ .f32) (w1 : FVec Ideal ⟨2, ![4, 128]⟩ .f32) (b1 : FVec Ideal ⟨2, ![1, 128]⟩ .f32)
    (w2 : FVec Ideal ⟨2, ![128, 128]⟩ .f32) (b2 : FVec Ideal ⟨2, ![1, 128]⟩ .f32) (i : Fin 1048576) (a : Fin 2) :
    Cert.Spec.logits x w1 b1 w2 b2 (ix2 i a)
      = (∑ c : Fin 128, Cert.Spec.hid x w1 b1 i c * w2 (ix2 c (Cert.Spec.col2 a))) + b2 (ix2 0 (Cert.Spec.col2 a)) := rfl

/-- The first two of the 128 columns of the kernel's result are the logits. -/
theorem slice_preLogits (x : FVec Ideal ⟨2, ![1048576, 4]⟩ .f32) (w1 : FVec Ideal ⟨2, ![4, 128]⟩ .f32) (b1 : FVec Ideal ⟨2, ![1, 128]⟩ .f32)
    (w2 : FVec Ideal ⟨2, ![128, 128]⟩ .f32) (b2 : FVec Ideal ⟨2, ![1, 128]⟩ .f32) :
    extractStridedSlice S1048576x2 ![0, 0] (preLogits x w1 b1 w2 b2) slices_S1048576x128_S1048576x2_0_0
      = Cert.Spec.logits x w1 b1 w2 b2 := by
  funext o
  obtain ⟨i, a, rfl⟩ : ∃ (i : Fin 1048576) (a : Fin 2), o = ix2 i a := ⟨o 0, o 1, eq_ix2 o⟩
  rw [slice2_axis1_apply 0 (preLogits x w1 b1 w2 b2) slices_S1048576x128_S1048576x2_0_0 i a (Cert.Spec.col2 a)
    (by show a.val = 0 + a.val; omega)]
  rw [preLogits_apply, logits_apply]

/-- What the host's slice leaves in the result buffer after the region: the logits of the argument arrays. -/
theorem tail_eq (c : Dev nD) : Pipeline.afterTail₀ cfgs (dats m) 0 (V0 m) [hostOps1] c main_v0
    = Cert.Spec.logits (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v0) = _
  after_results
  refine (congrArg (fun X => extractStridedSlice S1048576x2 ![0, 0] X slices_S1048576x128_S1048576x2_0_0)
    ((Pipeline.withArrays_arr spec0 launch0.win.arr_inj c (V0 m c) (fun w => (dats m 0 c).arrAt w cfg0.N) 5).trans (final m c))).trans ?_
  exact slice_preLogits _ _ _ _ _

/-- The reference's run, read: the result array is the perceptron's logits of the argument arrays, the arguments unchanged. -/
theorem run : θ_run defs (onTc (τ := τ) (main (F := Ideal))) ⟨m, fun _ => 0, ρ⟩ fun r => ∀ c : Dev nD,
      r.2.mem ((c : Thread nD τ).loc main_v0)
          = Cert.Spec.logits (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.ReferenceIdeal.RefValue

end
-- ==== Proof.lean ====
/-
  The packed two-layer perceptron kernel against its row-tiled reference.

  Both programs compute, for every batch row i and action a < 2,
      out(i, a) = (∑ c < 128, max(b1(c) + ∑ k < 4, x(i,k)·w1(k,c), 0) · w2(c, a)) + b2(a)
  (Proof/Spec.lean fixes the order of the additions). The reference tiles the batch 512 rows at a time, forms the
  hidden layer by four broadcast multiply-adds and multiplies by the whole padded 128 × 128 second layer, of which the
  host keeps the first two columns. The kernel packs 32 batch rows into one 128-wide row and multiplies by
  block-diagonal copies of the two weight matrices: in each sum over a packed axis all terms but those of one diagonal
  block carry a factor 0, and the others are the reference's terms. The two results are one function of the arguments
  (Proof/KValue.lean and Proof/RValue.lean read each program's run), so from memories that agree on the arguments both
  runs end with that function of the same arrays.
-/
import proofs.«123240_g2000403565215025_pallasbulk_1037_2_alg».proof.Defs
import proofs.«123240_g2000403565215025_pallasbulk_1037_2_alg».proof.Proof.Gen.Kernel
import proofs.«123240_g2000403565215025_pallasbulk_1037_2_alg».proof.Proof.Gen.Kernel.Skeleton
import proofs.«123240_g2000403565215025_pallasbulk_1037_2_alg».proof.Proof.Gen.Kernel.Launch
import proofs.«123240_g2000403565215025_pallasbulk_1037_2_alg».proof.Proof.Gen.Kernel.Points
import proofs.«123240_g2000403565215025_pallasbulk_1037_2_alg».proof.Proof.Gen.Kernel.Frame
import proofs.«123240_g2000403565215025_pallasbulk_1037_2_alg».proof.Proof.Gen.KernelIdeal
import proofs.«123240_g2000403565215025_pallasbulk_1037_2_alg».proof.Proof.Gen.KernelIdeal.Skeleton
import proofs.«123240_g2000403565215025_pallasbulk_1037_2_alg».proof.Proof.Gen.KernelIdeal.Launch
import proofs.«123240_g2000403565215025_pallasbulk_1037_2_alg».proof.Proof.Gen.KernelIdeal.Points
import proofs.«123240_g2000403565215025_pallasbulk_1037_2_alg».proof.Proof.Gen.KernelIdeal.Frame
import proofs.«123240_g2000403565215025_pallasbulk_1037_2_alg».proof.Proof.Gen.ReferenceIdeal
import proofs.«123240_g2000403565215025_pallasbulk_1037_2_alg».proof.Proof.Gen.ReferenceIdeal.Skeleton
import proofs.«123240_g2000403565215025_pallasbulk_1037_2_alg».proof.Proof.Gen.ReferenceIdeal.Launch
import proofs.«123240_g2000403565215025_pallasbulk_1037_2_alg».proof.Proof.Gen.ReferenceIdeal.Points
import proofs.«123240_g2000403565215025_pallasbulk_1037_2_alg».proof.Proof.Gen.ReferenceIdeal.Frame
import proofs.«123240_g2000403565215025_pallasbulk_1037_2_alg».proof.Proof.Gen.Pre_finite_inputs
import proofs.«123240_g2000403565215025_pallasbulk_1037_2_alg».proof.Proof.KValue
import proofs.«123240_g2000403565215025_pallasbulk_1037_2_alg».proof.Proof.RValue
import Idealize.ShloMosaic.Adequacy
import Idealize.ShloMosaic.Init

noncomputable section

namespace Cert.Proof

open Idealize.ShloMosaic Idealize.SL.Sem

/-- The word-level kernel terminates without a fault and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- From memories agreeing on the five arguments both runs end with the logits of those arguments: the same array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.PackedValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4⟩ := hagree c
  rw [e0, e1, e2, e3, e4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
